-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192x4 : Shape := ⟨2, ![8192, 4]⟩
abbrev S18183x16 : Shape := ⟨2, ![18183, 16]⟩
abbrev S1 : Shape := ⟨1, ![1]⟩
abbrev S3 : Shape := ⟨1, ![3]⟩
abbrev S18180 : Shape := ⟨1, ![18180]⟩
abbrev S4 : Shape := ⟨1, ![4]⟩
abbrev S_ : Shape := ⟨0, ![]⟩
abbrev S1x4 : Shape := ⟨2, ![1, 4]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S18183x16 : S_.BroadcastsInDim S18183x16 (![] : Fin 0 → Fin S18183x16.rank)
  reducesTo_S18183x16_S_d0_1 : S18183x16.ReducesTo [0, 1] S_
  bcast_S_S1 : S_.BroadcastsInDim S1 (![] : Fin 0 → Fin S1.rank)
  reducesTo_S1_S_d0 : S1.ReducesTo [0] S_
  bcast_S_S3 : S_.BroadcastsInDim S3 (![] : Fin 0 → Fin S3.rank)
  reducesTo_S3_S_d0 : S3.ReducesTo [0] S_
  bcast_S_S18180 : S_.BroadcastsInDim S18180 (![] : Fin 0 → Fin S18180.rank)
  reducesTo_S18180_S_d0 : S18180.ReducesTo [0] S_
  bcast_S_S8192x4 : S_.BroadcastsInDim S8192x4 (![] : Fin 0 → Fin S8192x4.rank)
  reducesTo_S8192x4_S_d0_1 : S8192x4.ReducesTo [0, 1] S_
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)

variable [Facts]

abbrev lit0 : Fin 4 → BitVec 32 := fun
  | 0 => 10000#32 | 1 => 8000#32 | 2 => 100#32 | 3 => 80#32
  | _ => 0#32

def fn_part1 {F : FTy → Type} [FloatOps F] (main_arg1 : IVec S8192x4 32) (main_arg5 : FVec F S18180 .f32) (main_c : IVec S4 32) (main_v13 : IVec S_ 1) (main_v14 : FVec F S3 .f32) (main_v15 : FVec F S3 .f32) : IVec S_ 1 :=
  let main_v16 : IVec S3 1 := cmpf .olt main_v14 main_v15
  let main_c_6 : IVec S_ 1 := constantI S_ 1 1#1
  let main_v17 : IVec S_ 1 := (fun x v => Host.reduce IntOp.andi x v reducesTo_S3_S_d0 h_S_) main_v16 main_c_6
  let main_v18 : IVec S_ 1 := andi main_v13 main_v17
  let main_v19 : FVec F S18180 .f32 := Host.absf main_arg5
  let main_cst_7 : FVec F S_ .f32 := constant S_ .f32 0x7F800000#32
  let main_v20 : FVec F S18180 .f32 := broadcastInDim S18180 ![] bcast_S_S18180 main_cst_7
  let main_v21 : IVec S18180 1 := cmpf .olt main_v19 main_v20
  let main_c_8 : IVec S_ 1 := constantI S_ 1 1#1
  let main_v22 : IVec S_ 1 := (fun x v => Host.reduce IntOp.andi x v reducesTo_S18180_S_d0 h_S_) main_v21 main_c_8
  let main_v23 : IVec S_ 1 := andi main_v18 main_v22
  let main_c_9 : IVec S_ 32 := constantI S_ 32 0#32
  let main_v24 : IVec S8192x4 32 := broadcastInDim S8192x4 ![] bcast_S_S8192x4 main_c_9
  let main_v25 : IVec S8192x4 1 := cmpi .sge main_arg1 main_v24
  let main_c_10 : IVec S_ 1 := constantI S_ 1 1#1
  let main_v26 : IVec S_ 1 := (fun x v => Host.reduce IntOp.andi x v reducesTo_S8192x4_S_d0_1 h_S_) main_v25 main_c_10
  let main_v27 : IVec S_ 1 := andi main_v23 main_v26
  let main_v28 : IVec S1x4 32 := broadcastInDim S1x4 ![1] bcast_S4_S1x4_1 main_c
  let main_v29 : IVec S8192x4 32 := broadcastInDim S8192x4 ![0, 1] bcast_S1x4_S8192x4_0_1 main_v28
  let main_v30 : IVec S8192x4 1 := cmpi .slt main_arg1 main_v29
  let main_c_11 : IVec S_ 1 := constantI S_ 1 1#1
  let main_v31 : IVec S_ 1 := (fun x v => Host.reduce IntOp.andi x v reducesTo_S8192x4_S_d0_1 h_S_) main_v30 main_c_11
  let main_v32 : IVec S_ 1 := andi main_v27 main_v31
  main_v32

def fn {F : FTy → Type} [FloatOps F] (main_arg0 : FVec F S8192x3 .f32) (main_arg1 : IVec S8192x4 32) (main_arg2 : FVec F S18183x16 .f32) (main_arg3 : FVec F S1 .f32) (main_arg4 : FVec F S3 .f32) (main_arg5 : FVec F S18180 .f32) : IVec S_ 1 :=
  let main_c : IVec S4 32 := fun i => lit0 (S4.rowMajor i)
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c_0 : IVec S_ 1 := constantI S_ 1 1#1
  let main_v3 : IVec S_ 1 := (fun x v => Host.reduce IntOp.andi x v reducesTo_S8192x3_S_d0_1 h_S_) main_v2 main_c_0
  let main_v4 : FVec F S18183x16 .f32 := Host.absf main_arg2
  let main_cst_1 : FVec F S_ .f32 := constant S_ .f32 0x7F800000#32
  let main_v5 : FVec F S18183x16 .f32 := broadcastInDim S18183x16 ![] bcast_S_S18183x16 main_cst_1
  let main_v6 : IVec S18183x16 1 := cmpf .olt main_v4 main_v5
  let main_c_2 : IVec S_ 1 := constantI S_ 1 1#1
  let main_v7 : IVec S_ 1 := (fun x v => Host.reduce IntOp.andi x v reducesTo_S18183x16_S_d0_1 h_S_) main_v6 main_c_2
  let main_v8 : IVec S_ 1 := andi main_v3 main_v7
  let main_v9 : FVec F S1 .f32 := Host.absf main_arg3
  let main_cst_3 : FVec F S_ .f32 := constant S_ .f32 0x7F800000#32
  let main_v10 : FVec F S1 .f32 := broadcastInDim S1 ![] bcast_S_S1 main_cst_3
  let main_v11 : IVec S1 1 := cmpf .olt main_v9 main_v10
  let main_c_4 : IVec S_ 1 := constantI S_ 1 1#1
  let main_v12 : IVec S_ 1 := (fun x v => Host.reduce IntOp.andi x v reducesTo_S1_S_d0 h_S_) main_v11 main_c_4
  let main_v13 : IVec S_ 1 := andi main_v8 main_v12
  let main_v14 : FVec F S3 .f32 := Host.absf main_arg4
  let main_cst_5 : FVec F S_ .f32 := constant S_ .f32 0x7F800000#32
  let main_v15 : FVec F S3 .f32 := broadcastInDim S3 ![] bcast_S_S3 main_cst_5
  fn_part1 (F := F) main_arg1 main_arg5 main_c main_v13 main_v14 main_v15
-- ==== Kernel.lean ====
abbrev S8192x3 : Shape := ⟨2, ![8192, 3]⟩
abbrev S8192x4 : Shape := ⟨2, ![8192, 4]⟩
abbrev S18183x16 : Shape := ⟨2, ![18183, 16]⟩
abbrev S1 : Shape := ⟨1, ![1]⟩
abbrev S3 : Shape := ⟨1, ![3]⟩
abbrev S18180 : Shape := ⟨1, ![18180]⟩
abbrev S4 : Shape := ⟨1, ![4]⟩
abbrev S1x4 : Shape := ⟨2, ![1, 4]⟩
abbrev S_ : Shape := ⟨0, ![]⟩
abbrev S3x16 : Shape := ⟨2, ![3, 16]⟩
abbrev S18180x16 : Shape := ⟨2, ![18180, 16]⟩
abbrev S18180x1 : Shape := ⟨2, ![18180, 1]⟩
abbrev S18180x17 : Shape := ⟨2, ![18180, 17]⟩
abbrev S8192x4x1 : Shape := ⟨3, ![8192, 4, 1]⟩
abbrev S1x1x1 : Shape := ⟨3, ![1, 1, 1]⟩
abbrev S8192x4x17 : Shape := ⟨3, ![8192, 4, 17]⟩
abbrev S8192x1 : Shape := ⟨2, ![8192, 1]⟩
abbrev S2048x3 : Shape := ⟨2, ![2048, 3]⟩
abbrev S2048x4x17 : Shape := ⟨3, ![2048, 4, 17]⟩
abbrev S2048x1 : Shape := ⟨2, ![2048, 1]⟩
abbrev S2048x16 : Shape := ⟨2, ![2048, 16]⟩
abbrev S1x3 : Shape := ⟨2, ![1, 3]⟩
abbrev S2048 : Shape := ⟨1, ![2048]⟩
abbrev S2048x4x16 : Shape := ⟨3, ![2048, 4, 16]⟩
abbrev S2048x4x1 : Shape := ⟨3, ![2048, 4, 1]⟩
abbrev S2048x4 : Shape := ⟨2, ![2048, 4]⟩

abbrev nBuf : Space → Nat
  | .hbm => 49
  | .vmem => 9
  | .smem => 0
  | _ => 0

abbrev bufTy : (tb : Table) → Fin (tcTables nBuf tb) → BufTy
  | .hbm, ⟨0, _⟩ => ⟨S8192x3, .f32⟩
  | .hbm, ⟨1, _⟩ => ⟨S8192x4, .i32⟩
  | .hbm, ⟨2, _⟩ => ⟨S18183x16, .f32⟩
  | .hbm, ⟨3, _⟩ => ⟨S1, .f32⟩
  | .hbm, ⟨4, _⟩ => ⟨S3, .f32⟩
  | .hbm, ⟨5, _⟩ => ⟨S18180, .f32⟩
  | .hbm, ⟨6, _⟩ => ⟨S4, .i32⟩
  | .hbm, ⟨7, _⟩ => ⟨S4, .i32⟩
  | .hbm, ⟨8, _⟩ => ⟨S1x4, .i32⟩
  | .hbm, ⟨9, _⟩ => ⟨S_, .i32⟩
  | .hbm, ⟨10, _⟩ => ⟨S1x4, .i32⟩
  | .hbm, ⟨11, _⟩ => ⟨S1x4, .i32⟩
  | .hbm, ⟨12, _⟩ => ⟨S_, .i32⟩
  | .hbm, ⟨13, _⟩ => ⟨S_, .i32⟩
  | .hbm, ⟨14, _⟩ => ⟨S8192x4, .i32⟩
  | .hbm, ⟨15, _⟩ => ⟨S8192x4, .i32⟩
  | .hbm, ⟨16, _⟩ => ⟨S8192x4, .i32⟩
  | .hbm, ⟨17, _⟩ => ⟨S8192x4, .i32⟩
  | .hbm, ⟨18, _⟩ => ⟨S1x4, .i32⟩
  | .hbm, ⟨19, _⟩ => ⟨S8192x4, .i32⟩
  | .hbm, ⟨20, _⟩ => ⟨S8192x4, .i32⟩
  | .hbm, ⟨21, _⟩ => ⟨S3x16, .f32⟩
  | .hbm, ⟨22, _⟩ => ⟨S18180x16, .f32⟩
  | .hbm, ⟨23, _⟩ => ⟨S18180x1, .f32⟩
  | .hbm, ⟨24, _⟩ => ⟨S18180x17, .f32⟩
  | .hbm, ⟨25, _⟩ => ⟨S_, .i32⟩
  | .hbm, ⟨26, _⟩ => ⟨S8192x4, .i32⟩
  | .hbm, ⟨27, _⟩ => ⟨S8192x4, .i1⟩
  | .hbm, ⟨28, _⟩ => ⟨S_, .i32⟩
  | .hbm, ⟨29, _⟩ => ⟨S8192x4, .i32⟩
  | .hbm, ⟨30, _⟩ => ⟨S8192x4, .i32⟩
  | .hbm, ⟨31, _⟩ => ⟨S8192x4, .i32⟩
  | .hbm, ⟨32, _⟩ => ⟨S8192x4x1, .i32⟩
  | .hbm, ⟨33, _⟩ => ⟨S1, .i32⟩
  | .hbm, ⟨34, _⟩ => ⟨S_, .i32⟩
  | .hbm, ⟨35, _⟩ => ⟨S8192x4x1, .i32⟩
  | .hbm, ⟨36, _⟩ => ⟨S8192x4x1, .i1⟩
  | .hbm, ⟨37, _⟩ => ⟨S1x1x1, .i32⟩
  | .hbm, ⟨38, _⟩ => ⟨S8192x4x1, .i32⟩
  | .hbm, ⟨39, _⟩ => ⟨S8192x4x1, .i1⟩
  | .hbm, ⟨40, _⟩ => ⟨S8192x4x1, .i1⟩
  | .hbm, ⟨41, _⟩ => ⟨S_, .i1⟩
  | .hbm, ⟨42, _⟩ => ⟨S8192x4, .i1⟩
  | .hbm, ⟨43, _⟩ => ⟨S8192x4x17, .f32⟩
  | .hbm, ⟨44, _⟩ => ⟨S8192x4x17, .i1⟩
  | .hbm, ⟨45, _⟩ => ⟨S_, .f32⟩
  | .hbm, ⟨46, _⟩ => ⟨S8192x4x17, .f32⟩
  | .hbm, ⟨47, _⟩ => ⟨S8192x4x17, .f32⟩
  | .hbm, ⟨48, _⟩ => ⟨S8192x1, .f32⟩
  | .local _ .vmem, ⟨0, _⟩ => ⟨S2048x3, .f32⟩
  | .local _ .vmem, ⟨1, _⟩ => ⟨S2048x3, .f32⟩
  | .local _ .vmem, ⟨2, _⟩ => ⟨S3x16, .f32⟩
  | .local _ .vmem, ⟨3, _⟩ => ⟨S3, .f32⟩
  | .local _ .vmem, ⟨4, _⟩ => ⟨S1, .f32⟩
  | .local _ .vmem, ⟨5, _⟩ => ⟨S2048x4x17, .f32⟩
  | .local _ .vmem, ⟨6, _⟩ => ⟨S2048x4x17, .f32⟩
  | .local _ .vmem, ⟨7, _⟩ => ⟨S2048x1, .f32⟩
  | .local _ .vmem, ⟨8, _⟩ => ⟨S2048x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v11 : Ref sig .tc := ⟨.hbm, 47, rfl⟩
abbrev main_v12 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x4x17 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S4_S1x4_1 : S4.BroadcastsInDim S1x4 (![1] : Fin 1 → Fin S1x4.rank)
  bcast_S_S1x4 : S_.BroadcastsInDim S1x4 (![] : Fin 0 → Fin S1x4.rank)
  bcast_S_S8192x4 : S_.BroadcastsInDim S8192x4 (![] : Fin 0 → Fin S8192x4.rank)
  bcast_S1x4_S8192x4_0_1 : S1x4.BroadcastsInDim S8192x4 (![0, 1] : Fin 2 → Fin S8192x4.rank)
  slices_S18183x16_S3x16_0_0 : S18183x16.Slices ![0, 0] S3x16
  slices_S18183x16_S18180x16_3_0 : S18183x16.Slices ![3, 0] S18180x16
  bcast_S18180_S18180x1_0 : S18180.BroadcastsInDim S18180x1 (![0] : Fin 1 → Fin S18180x1.rank)
  concatenates_S18180x16_S18180x1_S18180x17_d1 : Shape.Concatenates [S18180x16, S18180x1] S18180x17 1
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S1_S1x1x1_2 : S1.BroadcastsInDim S1x1x1 (![2] : Fin 1 → Fin S1x1x1.rank)
  bcast_S1x1x1_S8192x4x1_0_1_2 : S1x1x1.BroadcastsInDim S8192x4x1 (![0, 1, 2] : Fin 3 → Fin S8192x4x1.rank)
  reducesTo_S8192x4x1_S8192x4_d2 : S8192x4x1.ReducesTo [2] S8192x4
  h_S_ : 0 < S_.numel
  bcast_S8192x4_S8192x4x17_0_1 : S8192x4.BroadcastsInDim S8192x4x17 (![0, 1] : Fin 2 → Fin S8192x4x17.rank)
  bcast_S_S8192x4x17 : S_.BroadcastsInDim S8192x4x17 (![] : Fin 0 → Fin S8192x4x17.rank)
  inb_S2048x3_S2048x3_0_0 : ∀ a, (![0, 0] : Fin 2 → Nat) a + S2048x3.size a ≤ S2048x3.size a
  h_S2048x3 : 0 < S2048x3.numel
  inb_S3x16_S3x16_0_0 : ∀ a, (![0, 0] : Fin 2 → Nat) a + S3x16.size a ≤ S3x16.size a
  h_S3x16 : 0 < S3x16.numel
  shapeCasts_S3x16_S3x16 : S3x16.ShapeCasts S3x16
  bitsLt_bf16_f32 : FTy.bits .bf16 < FTy.bits .f32
  inb_S3_S3_0 : ∀ a, (![0] : Fin 1 → Nat) a + S3.size a ≤ S3.size a
  h_S3 : 0 < S3.numel
  shapeCasts_S3_S1x3 : S3.ShapeCasts S1x3
  broadcasts_S1x3_S2048x3 : S1x3.Broadcasts S2048x3
  reduces_S2048x3_S2048 : S2048x3.Reduces [1] S2048
  shapeCasts_S2048_S2048x1 : S2048.ShapeCasts S2048x1
  inb_S1_S1_0 : ∀ a, (![0] : Fin 1 → Nat) a + S1.size a ≤ S1.size a
  h_S1 : 0 < S1.numel
  inpos_S1_p0 : ∀ a, (![0] : Fin 1 → Nat) a < S1.size a
  inb_S2048x4x17_S2048x4x17_0_0_0 : ∀ a, (![0, 0, 0] : Fin 3 → Nat) a + S2048x4x17.size a ≤ S2048x4x17.size a
  h_S2048x4x17 : 0 < S2048x4x17.numel
  shapeCasts_S2048x4x17_S2048x4x17 : S2048x4x17.ShapeCasts S2048x4x17
  slices_S2048x4x17_o0_0_0_S2048x4x16 : S2048x4x17.Slices ![0, 0, 0] S2048x4x16
  slices_S2048x4x17_o0_0_16_S2048x4x1 : S2048x4x17.Slices ![0, 0, 16] S2048x4x1
  shapeCasts_S2048x4x1_S2048x4 : S2048x4x1.ShapeCasts S2048x4
  reduces_S2048x4x16_S2048x16 : S2048x4x16.Reduces [1] S2048x16
  reduces_S2048x4_S2048 : S2048x4.Reduces [1] S2048
  reduces_S2048x16_S2048 : S2048x16.Reduces [1] S2048
  inb_S2048x1_S2048x1_0_0 : ∀ a, (![0, 0] : Fin 2 → Nat) a + S2048x1.size a ≤ S2048x1.size a
  h_S2048x1 : 0 < S2048x1.numel
  gather_S18180x17_S8192x4x1_S8192x4x17_2_0_n_n_0_2_117_wf : GatherDims.WF S18180x17 S8192x4x1 S8192x4x17 [2] [0] [] [0] [] 2 ![1, 17]
  dot_S2048x3_S3x16_S2048x16_1_0_0_1_n_n_wf : DotDims.WF S2048x3 S3x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S8192x3.size a
  hwx0_0 : ∀ i : grid0.Coords, EltTy.bits .f32 = 32 ∨ (Rect.block (s := S8192x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4x17.size a ≤ S8192x4x17.size a
  hwx0_4 : ∀ i : grid0.Coords, EltTy.bits .f32 = 32 ∨ (Rect.block (s := S8192x4x17) S2048x4x17.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)

variable [Facts₀]

def gather_S18180x17_S8192x4x1_S8192x4x17_2_0_n_n_0_2_117 : GatherDims S18180x17 S8192x4x1 S8192x4x17 where
  offsetDims := [2]
  collapsedSliceDims := [0]
  operandBatchingDims := []
  startIndicesBatchingDims := []
  startIndexMap := [0]
  indexVectorDim := 2
  sliceSizes := ![1, 17]
  wf := gather_S18180x17_S8192x4x1_S8192x4x17_2_0_n_n_0_2_117_wf
def dot_S2048x3_S3x16_S2048x16_1_0_0_1_n_n : DotDims S2048x3 S3x16 S2048x16 where
  lhsContracting := [1]
  rhsContracting := [0]
  lhsNonContracting := [0]
  rhsNonContracting := [1]
  lhsBatch := []
  rhsBatch := []
  wf := dot_S2048x3_S3x16_S2048x16_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x4x17.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192x4 : Shape := ⟨2, ![8192, 4]⟩
abbrev S18183x16 : Shape := ⟨2, ![18183, 16]⟩
abbrev S1 : Shape := ⟨1, ![1]⟩
abbrev S3 : Shape := ⟨1, ![3]⟩
abbrev S18180 : Shape := ⟨1, ![18180]⟩
abbrev S4 : Shape := ⟨1, ![4]⟩
abbrev S1x4 : Shape := ⟨2, ![1, 4]⟩
abbrev S_ : Shape := ⟨0, ![]⟩
abbrev S1x3 : Shape := ⟨2, ![1, 3]⟩
abbrev S8192 : Shape := ⟨1, ![8192]⟩
abbrev S8192x4x1 : Shape := ⟨3, ![8192, 4, 1]⟩
abbrev S8192x18180 : Shape := ⟨2, ![8192, 18180]⟩
abbrev S8192x1 : Shape := ⟨2, ![8192, 1]⟩
abbrev S8192x4x2 : Shape := ⟨3, ![8192, 4, 2]⟩
abbrev S8192x18183 : Shape := ⟨2, ![8192, 18183]⟩
abbrev S8192x16 : Shape := ⟨2, ![8192, 16]⟩

abbrev nBuf : Space → Nat
  | .hbm => 69
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x4, .i32⟩
  | .hbm, ⟨2, _⟩ => ⟨S18183x16, .f32⟩
  | .hbm, ⟨3, _⟩ => ⟨S1, .f32⟩
  | .hbm, ⟨4, _⟩ => ⟨S3, .f32⟩
  | .hbm, ⟨5, _⟩ => ⟨S18180, .f32⟩
  | .hbm, ⟨6, _⟩ => ⟨S4, .i32⟩
  | .hbm, ⟨7, _⟩ => ⟨S1x4, .i32⟩
  | .hbm, ⟨8, _⟩ => ⟨S8192x4, .i32⟩
  | .hbm, ⟨9, _⟩ => ⟨S8192x4, .i32⟩
  | .hbm, ⟨10, _⟩ => ⟨S_, .f32⟩
  | .hbm, ⟨11, _⟩ => ⟨S1x3, .f32⟩
  | .hbm, ⟨12, _⟩ => ⟨S8192x3, .f32⟩
  | .hbm, ⟨13, _⟩ => ⟨S8192x3, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .i32⟩
  | .hbm, ⟨19, _⟩ => ⟨S8192x4, .i32⟩
  | .hbm, ⟨20, _⟩ => ⟨S8192x4, .i1⟩
  | .hbm, ⟨21, _⟩ => ⟨S_, .i32⟩
  | .hbm, ⟨22, _⟩ => ⟨S8192x4, .i32⟩
  | .hbm, ⟨23, _⟩ => ⟨S8192x4, .i32⟩
  | .hbm, ⟨24, _⟩ => ⟨S8192x4, .i32⟩
  | .hbm, ⟨25, _⟩ => ⟨S8192x4x1, .i32⟩
  | .hbm, ⟨26, _⟩ => ⟨S8192x4, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192x18180, .f32⟩
  | .hbm, ⟨32, _⟩ => ⟨S8192, .i32⟩
  | .hbm, ⟨33, _⟩ => ⟨S8192x1, .i32⟩
  | .hbm, ⟨34, _⟩ => ⟨S_, .i32⟩
  | .hbm, ⟨35, _⟩ => ⟨S8192x1, .i32⟩
  | .hbm, ⟨36, _⟩ => ⟨S8192x1, .i1⟩
  | .hbm, ⟨37, _⟩ => ⟨S_, .i32⟩
  | .hbm, ⟨38, _⟩ => ⟨S8192x1, .i32⟩
  | .hbm, ⟨39, _⟩ => ⟨S8192x1, .i32⟩
  | .hbm, ⟨40, _⟩ => ⟨S8192x1, .i32⟩
  | .hbm, ⟨41, _⟩ => ⟨S_, .i32⟩
  | .hbm, ⟨42, _⟩ => ⟨S8192x4, .i32⟩
  | .hbm, ⟨43, _⟩ => ⟨S8192x4, .i1⟩
  | .hbm, ⟨44, _⟩ => ⟨S_, .i32⟩
  | .hbm, ⟨45, _⟩ => ⟨S8192x4, .i32⟩
  | .hbm, ⟨46, _⟩ => ⟨S8192x4, .i32⟩
  | .hbm, ⟨47, _⟩ => ⟨S8192x4, .i32⟩
  | .hbm, ⟨48, _⟩ => ⟨S8192x4, .i32⟩
  | .hbm, ⟨49, _⟩ => ⟨S8192x4x1, .i32⟩
  | .hbm, ⟨50, _⟩ => ⟨S8192x4x1, .i32⟩
  | .hbm, ⟨51, _⟩ => ⟨S8192x4x2, .i32⟩
  | .hbm, ⟨52, _⟩ => ⟨S_, .f32⟩
  | .hbm, ⟨53, _⟩ => ⟨S8192x4, .f32⟩
  | .hbm, ⟨54, _⟩ => ⟨S8192x18180, .f32⟩
  | .hbm, ⟨55, _⟩ => ⟨S8192x18183, .f32⟩
  | .hbm, ⟨56, _⟩ => ⟨S8192x16, .f32⟩
  | .hbm, ⟨57, _⟩ => ⟨S8192x16, .f32⟩
  | .hbm, ⟨58, _⟩ => ⟨S8192x18183, .f32⟩
  | .hbm, ⟨59, _⟩ => ⟨S18183x16, .f32⟩
  | .hbm, ⟨60, _⟩ => ⟨S8192x16, .f32⟩
  | .hbm, ⟨61, _⟩ => ⟨S8192x16, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192x1, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  shapeCasts_S1_S_ : S1.ShapeCasts S_
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  h_S_ : 0 < S_.numel
  bcast_S_S8192 : S_.BroadcastsInDim S8192 (![] : Fin 0 → Fin S8192.rank)
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  reducesTo_S8192x4_S8192_d1 : S8192x4.ReducesTo [1] S8192
  bcast_S_S8192x18180 : S_.BroadcastsInDim S8192x18180 (![] : Fin 0 → Fin S8192x18180.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4_0_1 : S8192x1.BroadcastsInDim S8192x4 (![0, 1] : Fin 2 → Fin S8192x4.rank)
  concatenates_S8192x4x1_S8192x4x1_S8192x4x2_d2 : Shape.Concatenates [S8192x4x1, S8192x4x1] S8192x4x2 2
  concatenates_S8192x3_S8192x18180_S8192x18183_d1 : Shape.Concatenates [S8192x3, S8192x18180] S8192x18183 1
  reducesTo_S8192x16_S8192_d1 : S8192x16.ReducesTo [1] S8192
  gather_S18180_S8192x4x1_S8192x4_n_0_n_n_0_2_1_wf : GatherDims.WF S18180 S8192x4x1 S8192x4 [] [0] [] [0] [] 2 ![1]
  scatter_S8192x18180_S8192x4x2_S8192x4_n_01_01_2_wf : ScatterDims.WF S8192x18180 S8192x4x2 S8192x4 [] [0, 1] [0, 1] 2
  dot_S8192x18183_S18183x16_S8192x16_1_0_0_1_n_n_wf : DotDims.WF S8192x18183 S18183x16 S8192x16 [1] [0] [0] [1] [] []

variable [Facts₀]

def gather_S18180_S8192x4x1_S8192x4_n_0_n_n_0_2_1 : GatherDims S18180 S8192x4x1 S8192x4 where
  offsetDims := []
  collapsedSliceDims := [0]
  operandBatchingDims := []
  startIndicesBatchingDims := []
  startIndexMap := [0]
  indexVectorDim := 2
  sliceSizes := ![1]
  wf := gather_S18180_S8192x4x1_S8192x4_n_0_n_n_0_2_1_wf
def scatter_S8192x18180_S8192x4x2_S8192x4_n_01_01_2 : ScatterDims S8192x18180 S8192x4x2 S8192x4 where
  updateWindowDims := []
  insertedWindowDims := [0, 1]
  scatterDimsToOperandDims := [0, 1]
  indexVectorDim := 2
  wf := scatter_S8192x18180_S8192x4x2_S8192x4_n_01_01_2_wf
def dot_S8192x18183_S18183x16_S8192x16_1_0_0_1_n_n : DotDims S8192x18183 S18183x16 S8192x16 where
  lhsContracting := [1]
  rhsContracting := [0]
  lhsNonContracting := [0]
  rhsNonContracting := [1]
  lhsBatch := []
  rhsBatch := []
  wf := dot_S8192x18183_S18183x16_S8192x16_1_0_0_1_n_n_wf

class Facts : Prop extends Facts₀ where

variable [Facts]
-- ==== Proof.FmSpec.lean ====
/-
  The factorization-machine score of one batch row, as one function of the argument arrays.

  For a row with numeric features x (three of them), categorical ids landing at global table rows
  g(0..3), embedding table v and biases, the score is

    (g0 + Σ_k x_k·nb_k + Σ_j cb[g_j])
      + ½ · Σ_d ( (Σ_k x_k·v[k,d] + Σ_j v[3+g_j,d])² − (Σ_k x_k²·v[k,d]² + Σ_j v[3+g_j,d]²) ).

  A categorical id of feature j lies in [0, size_j) and its global row is id + offset_j; the four bands
  [offset_j, offset_j + size_j) are disjoint, so the four global rows of one sample are distinct.
-/
import Idealize.ShloMosaic.PureOps.Ideal
import Idealize.ShloMosaic.Lib.ValueIdx

noncomputable section

open scoped BigOperators

namespace Cert.FM

open Idealize.ShloMosaic Idealize.ShloMosaic.ValueIdx

/-- The number of categories of each of the four categorical features. -/
abbrev sz : Fin 4 → ℕ := ![10000, 8000, 100, 80]
/-- Where each feature's band of rows starts in the concatenated table. -/
abbrev off : Fin 4 → ℕ := ![0, 10000, 18000, 18100]

theorem off_add_sz_le : ∀ j : Fin 4, off j + sz j ≤ 18180 := by decide

/-- The band a global row lies in. -/
def band (n : ℕ) : Fin 4 := if n < 10000 then 0 else if n < 18000 then 1 else if n < 18100 then 2 else 3

/-- A row a places below its feature's size lands in that feature's band. -/
theorem band_eq (j : Fin 4) (a : ℕ) (h : a < sz j) : band (a + off j) = j := by
  fin_cases j
  · have h' : a < 10000 := h
    show band (a + 0) = 0
    unfold band; rw [if_pos (by omega)]
  · have h' : a < 8000 := h
    show band (a + 10000) = 1
    unfold band; rw [if_neg (by omega), if_pos (by omega)]
  · have h' : a < 100 := h
    show band (a + 18000) = 2
    unfold band; rw [if_neg (by omega), if_neg (by omega), if_pos (by omega)]
  · have h' : a < 80 := h
    show band (a + 18100) = 3
    unfold band; rw [if_neg (by omega), if_neg (by omega), if_neg (by omega)]

/-- Every categorical id lies in its own feature's range. -/
def InBand (xc : (⟨2, ![8192, 4]⟩ : Shape).Idx → BitVec 32) : Prop :=
  ∀ (b : Fin 8192) (j : Fin 4), (xc (ix2 b j)).toNat < sz j

/-- The global table row of sample b's feature j (cut off at the table's last row, so that it is a row for every id). -/
def gid (xc : (⟨2, ![8192, 4]⟩ : Shape).Idx → BitVec 32) (b : Fin 8192) (j : Fin 4) : Fin 18180 :=
  ⟨min ((xc (ix2 b j)).toNat + off j) 18179, by omega⟩

theorem gid_val {xc : (⟨2, ![8192, 4]⟩ : Shape).Idx → BitVec 32} (h : InBand xc) (b : Fin 8192) (j : Fin 4) :
    (gid xc b j).val = (xc (ix2 b j)).toNat + off j := by
  have h1 := h b j
  have h2 := off_add_sz_le j
  show min _ _ = _
  omega

/-- The four global rows of one sample are pairwise distinct: they lie in disjoint bands. -/
theorem gid_injective {xc : (⟨2, ![8192, 4]⟩ : Shape).Idx → BitVec 32} (h : InBand xc) (b : Fin 8192) :
    Function.Injective (gid xc b) := by
  intro j j' e
  have e' : (gid xc b j).val = (gid xc b j').val := congrArg Fin.val e
  rw [gid_val h, gid_val h] at e'
  rw [← band_eq j _ (h b j), ← band_eq j' _ (h b j'), e']

/-- One half, as the single-precision word both programs carry. -/
def half : EReal := Ideal.ofBits .f32 0x3F000000#32

/-- One row's score from its pieces: the global bias g, the numeric features x with their linear weights nb and
    their embedding rows vn, and the four looked-up categorical biases cb and embedding rows vc. -/
def fmRow (g : EReal) (x nb : Fin 3 → EReal) (cb : Fin 4 → EReal) (vn : Fin 3 → Fin 16 → EReal)
    (vc : Fin 4 → Fin 16 → EReal) : EReal :=
  ((g + ∑ k : Fin 3, x k * nb k) + ∑ j : Fin 4, cb j)
    + half * ∑ d : Fin 16,
        ((∑ k : Fin 3, x k * vn k d + ∑ j : Fin 4, vc j d) * (∑ k : Fin 3, x k * vn k d + ∑ j : Fin 4, vc j d)
          - (∑ k : Fin 3, (x k * x k) * (vn k d * vn k d) + ∑ j : Fin 4, vc j d * vc j d))

/-- Equal pieces give equal scores. -/
theorem fmRow_congr {g g' : EReal} {x x' nb nb' : Fin 3 → EReal} {cb cb' : Fin 4 → EReal}
    {vn vn' : Fin 3 → Fin 16 → EReal} {vc vc' : Fin 4 → Fin 16 → EReal}
    (h1 : g = g') (h2 : x = x') (h3 : nb = nb') (h4 : cb = cb') (h5 : vn = vn') (h6 : vc = vc') :
    fmRow g x nb cb vn vc = fmRow g' x' nb' cb' vn' vc' := by
  subst h1 h2 h3 h4 h5 h6; rfl

/-- The whole result: row b's score, laid out as a column. -/
def Y (x : (⟨2, ![8192, 3]⟩ : Shape).Idx → EReal) (xc : (⟨2, ![8192, 4]⟩ : Shape).Idx → BitVec 32)
    (v : (⟨2, ![18183, 16]⟩ : Shape).Idx → EReal) (gb : (⟨1, ![1]⟩ : Shape).Idx → EReal)
    (nb : (⟨1, ![3]⟩ : Shape).Idx → EReal) (cb : (⟨1, ![18180]⟩ : Shape).Idx → EReal) :
    (⟨2, ![8192, 1]⟩ : Shape).Idx → EReal := fun i =>
  fmRow (gb (ix1 (0 : Fin 1))) (fun k => x (ix2 (n0 := 8192) (n1 := 3) (i 0) k)) (fun k => nb (ix1 k))
    (fun j => cb (ix1 (gid xc (i 0) j)))
    (fun k d => v (ix2 (n0 := 18183) (n1 := 16) ⟨k.val, by omega⟩ d))
    (fun j d => v (ix2 (n0 := 18183) (n1 := 16) ⟨3 + (gid xc (i 0) j).val, by omega⟩ d))

end Cert.FM

end
-- ==== Proof.PreDecode.lean ====
/-
  From the printed precondition to the range of every categorical id.

  The precondition is a conjunction of seven "all entries" tests; its last two say that every categorical id is
  at least 0 and below its feature's size (the sizes broadcast along the rows). Read at one entry (b, j) they
  give 0 ≤ id and id < size_j as signed 32-bit comparisons, that is, the id's unsigned value is below size_j.
-/
import proofs.«425805_j84920093376777_3_alg».proof.Pre_finite_inputs
import proofs.«425805_j84920093376777_3_alg».proof.Proof.FmSpec
import Idealize.ShloMosaic.Lib.StableHlo.Predicate
import Idealize.ShloMosaic.Lib.ReduceAll

noncomputable section

namespace Cert.Pre_finite_inputs.Decode

open Cert.Pre_finite_inputs Idealize.ShloMosaic Idealize.ShloMosaic.ValueIdx

variable {F : FTy → Type} [FloatOps F] [Facts]
/-- A word that is at least 0 and below a small size, both read signed, has its unsigned value below that size. -/
theorem toNat_lt_of_sge_slt (a : BitVec 32) (n : ℕ) (hn : n < 2 ^ 31) (h1 : IntOp.cmpi .sge a 0#32 = 1#1)
    (h2 : IntOp.cmpi .slt a (BitVec.ofNat 32 n) = 1#1) : a.toNat < n := by
  have ha : a.toNat < 2 ^ 31 := by
    unfold IntOp.cmpi at h1
    rw [StableHlo.Predicate.ofBool_eq_one_iff] at h1
    have h3 : 0 ≤ a.toInt := by simpa [BitVec.sle] using h1
    rw [BitVec.toInt_eq_toNat_cond] at h3
    have := a.isLt
    split at h3 <;> omega
  have hb : (BitVec.ofNat 32 n).toNat = n := by rw [BitVec.toNat_ofNat]; omega
  have := (StableHlo.Predicate.slt_iff_toNat ha (by rw [hb]; exact hn)).1 h2
  rwa [hb] at this

/-- The size row, broadcast down the rows, reads at (b, j) the size of feature j. -/
theorem size_at (h₁ : S4.BroadcastsInDim S1x4 (![1] : Fin 1 → Fin S1x4.rank))
    (h₂ : S1x4.BroadcastsInDim S8192x4 (![0, 1] : Fin 2 → Fin S8192x4.rank)) (b : Fin 8192) (j : Fin 4) :
    broadcastInDim S8192x4 ![0, 1] h₂ (broadcastInDim S1x4 ![1] h₁ fun i => lit0 (S4.rowMajor i)) (ix2 b j)
      = BitVec.ofNat 32 (Cert.FM.sz j) := by
  have e : ix2 b j = StableHlo.Predicate.ij b j := by
    funext d; match d with | ⟨0, _⟩ => rfl | ⟨1, _⟩ => rfl
  rw [e, StableHlo.Predicate.bcast_cols]
  fin_cases j <;> rfl

/-- Where the precondition holds, every categorical id lies in its own feature's range. -/
theorem inBand_of_pre (x : FVec F S8192x3 .f32) (xc : IVec S8192x4 32) (v : FVec F S18183x16 .f32)
    (gb : FVec F S1 .f32) (nb : FVec F S3 .f32) (cb : FVec F S18180 .f32)
    (h : fn (F := F) x xc v gb nb cb = fun _ => 1#1) : Cert.FM.InBand xc := by
  have h0 := congrFun h ValueIdx.ix0
  dsimp only [fn, fn_part1] at h0
  obtain ⟨h1, hlt⟩ := IntOp.andi_eq_one.1 h0
  obtain ⟨_, hge⟩ := IntOp.andi_eq_one.1 h1
  intro b j
  haveI : Subsingleton S_.Idx := ⟨fun a b => funext fun d => d.elim0⟩
  have e1 := Host.reduce_andi_all _ _ _ _ _ hge (ix2 b j)
  have e2 := Host.reduce_andi_all _ _ _ _ _ hlt (ix2 b j)
  change IntOp.cmpi .sge (xc (ix2 b j)) 0#32 = 1#1 at e1
  change IntOp.cmpi .slt (xc (ix2 b j)) _ = 1#1 at e2
  rw [size_at] at e2
  refine toNat_lt_of_sge_slt _ _ ?_ e1 e2
  fin_cases j <;> decide

end Cert.Pre_finite_inputs.Decode

end
-- ==== Proof.RefTerm.lean ====
/-
  The reference program's result as one term of its arguments, stage by stage.

  The stages follow the program's own order: the global ids (categorical ids plus band offsets), the same
  ids with negative ones wrapped by the table length, the three bias sums, the scattered one-hot rows,
  the feature matrix (numeric features beside the one-hot rows), its product with the embedding table and
  the product of the squares, and the final score column.
-/
import proofs.«425805_j84920093376777_3_alg».proof.ReferenceIdeal

noncomputable section

namespace Cert.ReferenceIdeal.Term

open Cert.ReferenceIdeal Idealize.ShloMosaic
open Facts₀ Facts

variable {F : FTy → Type} [FloatOps F] [Facts]

/-- Global ids: each categorical id plus its feature's band offset. -/
def gidx (xc : IVec S8192x4 32) : IVec S8192x4 32 :=
  addi xc (broadcastInDim S8192x4 ![0, 1] bcast_S1x4_S8192x4_0_1
    (broadcastInDim S1x4 ![1] bcast_S4_S1x4_1 (fun i => lit0 (S4.rowMajor i))))

/-- Global ids with a negative one moved up by the table length 18180. -/
def gidxW (xc : IVec S8192x4 32) : IVec S8192x4 32 :=
  select (cmpi .slt (gidx xc) (broadcastInDim S8192x4 ![] bcast_S_S8192x4 (constantI S_ 32 0#32)))
    (addi (gidx xc) (broadcastInDim S8192x4 ![] bcast_S_S8192x4 (constantI S_ 32 18180#32))) (gidx xc)

/-- The numeric linear term of every row: the sum over the three numeric features of feature times weight. -/
def biasNum (x : FVec F S8192x3 .f32) (nb : FVec F S3 .f32) : FVec F S8192 .f32 :=
  Host.reduceAdd (mulf x (broadcastInDim S8192x3 ![0, 1] bcast_S1x3_S8192x3_0_1
      (broadcastInDim S1x3 ![1] bcast_S3_S1x3_1 nb)))
    (constant S_ .f32 0x00000000#32) reducesTo_S8192x3_S8192_d1 h_S_

/-- The categorical linear term of every row: the sum of the four looked-up categorical biases. -/
def biasCat (xc : IVec S8192x4 32) (cb : FVec F S18180 .f32) : FVec F S8192 .f32 :=
  Host.reduceAdd (Host.gather gather_S18180_S8192x4x1_S8192x4_n_0_n_n_0_2_1 cb
      (broadcastInDim S8192x4x1 ![0, 1] bcast_S8192x4_S8192x4x1_0_1 (gidxW xc)))
    (constant S_ .f32 0x00000000#32) reducesTo_S8192x4_S8192_d1 h_S_

/-- Global bias plus numeric linear term plus categorical linear term. -/
def biasTerm (x : FVec F S8192x3 .f32) (xc : IVec S8192x4 32) (gb : FVec F S1 .f32) (nb : FVec F S3 .f32)
    (cb : FVec F S18180 .f32) : FVec F S8192 .f32 :=
  addf (addf (broadcastInDim S8192 ![] bcast_S_S8192 (shapeCast S_ gb shapeCasts_S1_S_)) (biasNum x nb))
    (biasCat xc cb)

/-- The row number of every row, as a column. -/
def rowIota : IVec S8192x1 32 := broadcastInDim S8192x1 ![0] bcast_S8192_S8192x1_0 (iotaInDim S8192 32 0)

/-- Row numbers with a negative one moved up by the row count. -/
def rowIotaW : IVec S8192x1 32 :=
  select (cmpi .slt rowIota (broadcastInDim S8192x1 ![] bcast_S_S8192x1 (constantI S_ 32 0#32)))
    (addi rowIota (broadcastInDim S8192x1 ![] bcast_S_S8192x1 (constantI S_ 32 8192#32))) rowIota

/-- The scatter's index pairs: (row number, global id) for every sample and feature. -/
def scatIdx (xc : IVec S8192x4 32) : IVec S8192x4x2 32 :=
  concatenate S8192x4x2 2
    [⟨S8192x4x1, broadcastInDim S8192x4x1 ![0, 1] bcast_S8192x4_S8192x4x1_0_1
        (broadcastInDim S8192x4 ![0, 1] bcast_S8192x1_S8192x4_0_1 rowIotaW)⟩,
     ⟨S8192x4x1, broadcastInDim S8192x4x1 ![0, 1] bcast_S8192x4_S8192x4x1_0_1 (gidxW xc)⟩]
    concatenates_S8192x4x1_S8192x4x1_S8192x4x2_d2

/-- The one-hot rows: zeros with a one written at every (row, global id) pair. -/
def onehot (xc : IVec S8192x4 32) : FVec F S8192x18180 .f32 :=
  Host.scatter scatter_S8192x18180_S8192x4x2_S8192x4_n_01_01_2 (fun _ b => b)
    (broadcastInDim S8192x18180 ![] bcast_S_S8192x18180 (constant S_ .f32 0x00000000#32)) (scatIdx xc)
    (broadcastInDim S8192x4 ![] bcast_S_S8192x4 (constant S_ .f32 0x3F800000#32))

/-- The feature matrix: the three numeric features, then the one-hot rows. -/
def xfm (x : FVec F S8192x3 .f32) (xc : IVec S8192x4 32) : FVec F S8192x18183 .f32 :=
  concatenate S8192x18183 1 [⟨S8192x3, x⟩, ⟨S8192x18180, onehot (F := F) xc⟩]
    concatenates_S8192x3_S8192x18180_S8192x18183_d1

/-- The feature matrix times the embedding table. -/
def prodXV (x : FVec F S8192x3 .f32) (xc : IVec S8192x4 32) (v : FVec F S18183x16 .f32) : FVec F S8192x16 .f32 :=
  Host.dotGeneral dot_S8192x18183_S18183x16_S8192x16_1_0_0_1_n_n none (xfm x xc) v

/-- The squared feature matrix times the squared embedding table. -/
def prodX2V2 (x : FVec F S8192x3 .f32) (xc : IVec S8192x4 32) (v : FVec F S18183x16 .f32) : FVec F S8192x16 .f32 :=
  Host.dotGeneral dot_S8192x18183_S18183x16_S8192x16_1_0_0_1_n_n none (mulf (xfm x xc) (xfm x xc)) (mulf v v)

/-- The pairwise-interaction sum of every row: the sum over the embedding coordinates of the square of the sum
    minus the sum of the squares. -/
def inter (x : FVec F S8192x3 .f32) (xc : IVec S8192x4 32) (v : FVec F S18183x16 .f32) : FVec F S8192 .f32 :=
  Host.reduceAdd (subf (mulf (prodXV x xc v) (prodXV x xc v)) (prodX2V2 x xc v))
    (constant S_ .f32 0x00000000#32) reducesTo_S8192x16_S8192_d1 h_S_

/-- The reference's result: bias terms plus one half of the interaction sum, as a column. -/
def refOut (x : FVec F S8192x3 .f32) (xc : IVec S8192x4 32) (v : FVec F S18183x16 .f32) (gb : FVec F S1 .f32)
    (nb : FVec F S3 .f32) (cb : FVec F S18180 .f32) : FVec F S8192x1 .f32 :=
  broadcastInDim S8192x1 ![0] bcast_S8192_S8192x1_0
    (addf (biasTerm x xc gb nb cb)
      (mulf (broadcastInDim S8192 ![] bcast_S_S8192 (constant S_ .f32 0x3F000000#32)) (inter x xc v)))

end Cert.ReferenceIdeal.Term

end
-- ==== Proof.RefRun.lean ====
/-
  The reference program's run: it is a straight line of host operations, so every execution ends, with the result
  buffer holding the composed term of the arguments and the arguments unchanged.
-/
import proofs.«425805_j84920093376777_3_alg».proof.Proof.Gen.ReferenceIdeal
import proofs.«425805_j84920093376777_3_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The two index columns side by side: the concatenation along the last axis, as a function of its two operands. -/
def cat35 : (⟨S8192x4x1, .i32⟩ : BufTy).Contents (Elt F) → (⟨S8192x4x1, .i32⟩ : BufTy).Contents (Elt F) → (⟨S8192x4x2, .i32⟩ : BufTy).Contents (Elt F) :=
  fun a b => concatenate S8192x4x2 2 [⟨S8192x4x1, a⟩, ⟨S8192x4x1, b⟩] concatenates_S8192x4x1_S8192x4x1_S8192x4x2_d2

/-- The numeric features beside the one-hot rows: the concatenation along the columns, as a function of its two operands. -/
def cat38 : (⟨S8192x3, .f32⟩ : BufTy).Contents (Elt F) → (⟨S8192x18180, .f32⟩ : BufTy).Contents (Elt F) → (⟨S8192x18183, .f32⟩ : BufTy).Contents (Elt F) :=
  fun a b => concatenate S8192x18183 1 [⟨S8192x3, a⟩, ⟨S8192x18180, b⟩] concatenates_S8192x3_S8192x18180_S8192x18183_d1

/-- The reference's 63 operations, in the program's order. -/
abbrev ops : List (HloOp τ sig (Elt F)) :=
  [ nullary main_c (fun i => lit0 (S4.rowMajor i)),
    unary main_c main_v0 (broadcastInDim S1x4 ![1] bcast_S4_S1x4_1 : (⟨S4, .i32⟩ : BufTy).Contents (Elt F) → (⟨S1x4, .i32⟩ : BufTy).Contents (Elt F)),
    unary main_v0 main_v1 (broadcastInDim S8192x4 ![0, 1] bcast_S1x4_S8192x4_0_1 : (⟨S1x4, .i32⟩ : BufTy).Contents (Elt F) → (⟨S8192x4, .i32⟩ : BufTy).Contents (Elt F)),
    binary main_arg1 main_v1 main_v2 (addi : (⟨S8192x4, .i32⟩ : BufTy).Contents (Elt F) → (⟨S8192x4, .i32⟩ : BufTy).Contents (Elt F) → (⟨S8192x4, .i32⟩ : BufTy).Contents (Elt F)),
    reshape main_arg3 main_v3 rfl shapeCasts_S1_S_,
    unary main_arg4 main_v4 (broadcastInDim S1x3 ![1] bcast_S3_S1x3_1 : (⟨S3, .f32⟩ : BufTy).Contents (Elt F) → (⟨S1x3, .f32⟩ : BufTy).Contents (Elt F)),
    unary main_v4 main_v5 (broadcastInDim S8192x3 ![0, 1] bcast_S1x3_S8192x3_0_1 : (⟨S1x3, .f32⟩ : BufTy).Contents (Elt F) → (⟨S8192x3, .f32⟩ : BufTy).Contents (Elt F)),
    binary main_arg0 main_v5 main_v6 (mulf : (⟨S8192x3, .f32⟩ : BufTy).Contents (Elt F) → (⟨S8192x3, .f32⟩ : BufTy).Contents (Elt F) → (⟨S8192x3, .f32⟩ : BufTy).Contents (Elt F)),
    nullary main_cst (constant S_ .f32 0x00000000#32),
    binary main_v6 main_cst main_v7 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    unary main_v3 main_v8 (broadcastInDim S8192 ![] bcast_S_S8192 : (⟨S_, .f32⟩ : BufTy).Contents (Elt F) → (⟨S8192, .f32⟩ : BufTy).Contents (Elt F)),
    binary main_v8 main_v7 main_v9 (addf : (⟨S8192, .f32⟩ : BufTy).Contents (Elt F) → (⟨S8192, .f32⟩ : BufTy).Contents (Elt F) → (⟨S8192, .f32⟩ : BufTy).Contents (Elt F)),
    nullary main_c_0 (constantI S_ 32 0#32),
    unary main_c_0 main_v10 (broadcastInDim S8192x4 ![] bcast_S_S8192x4 : (⟨S_, .i32⟩ : BufTy).Contents (Elt F) → (⟨S8192x4, .i32⟩ : BufTy).Contents (Elt F)),
    binary main_v2 main_v10 main_v11 (cmpi .slt : (⟨S8192x4, .i32⟩ : BufTy).Contents (Elt F) → (⟨S8192x4, .i32⟩ : BufTy).Contents (Elt F) → (⟨S8192x4, .i1⟩ : BufTy).Contents (Elt F)),
    nullary main_c_1 (constantI S_ 32 18180#32),
    unary main_c_1 main_v12 (broadcastInDim S8192x4 ![] bcast_S_S8192x4 : (⟨S_, .i32⟩ : BufTy).Contents (Elt F) → (⟨S8192x4, .i32⟩ : BufTy).Contents (Elt F)),
    binary main_v2 main_v12 main_v13 (addi : (⟨S8192x4, .i32⟩ : BufTy).Contents (Elt F) → (⟨S8192x4, .i32⟩ : BufTy).Contents (Elt F) → (⟨S8192x4, .i32⟩ : BufTy).Contents (Elt F)),
    ternary main_v11 main_v13 main_v2 main_v14 (select : (⟨S8192x4, .i1⟩ : BufTy).Contents (Elt F) → (⟨S8192x4, .i32⟩ : BufTy).Contents (Elt F) → (⟨S8192x4, .i32⟩ : BufTy).Contents (Elt F) → (⟨S8192x4, .i32⟩ : BufTy).Contents (Elt F)),
    unary main_v14 main_v15 (broadcastInDim S8192x4x1 ![0, 1] bcast_S8192x4_S8192x4x1_0_1 : (⟨S8192x4, .i32⟩ : BufTy).Contents (Elt F) → (⟨S8192x4x1, .i32⟩ : BufTy).Contents (Elt F)),
    binary main_arg5 main_v15 main_v16 ((fun x i => Host.gather gather_S18180_S8192x4x1_S8192x4_n_0_n_n_0_2_1 x i) : (⟨S18180, .f32⟩ : BufTy).Contents (Elt F) → (⟨S8192x4x1, .i32⟩ : BufTy).Contents (Elt F) → (⟨S8192x4, .f32⟩ : BufTy).Contents (Elt F)),
    nullary main_cst_2 (constant S_ .f32 0x00000000#32),
    binary main_v16 main_cst_2 main_v17 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    binary main_v9 main_v17 main_v18 (addf : (⟨S8192, .f32⟩ : BufTy).Contents (Elt F) → (⟨S8192, .f32⟩ : BufTy).Contents (Elt F) → (⟨S8192, .f32⟩ : BufTy).Contents (Elt F)),
    nullary main_cst_3 (constant S_ .f32 0x00000000#32),
    unary main_cst_3 main_v19 (broadcastInDim S8192x18180 ![] bcast_S_S8192x18180 : (⟨S_, .f32⟩ : BufTy).Contents (Elt F) → (⟨S8192x18180, .f32⟩ : BufTy).Contents (Elt F)),
    nullary main_v20 (iotaInDim S8192 32 0),
    unary main_v20 main_v21 (broadcastInDim S8192x1 ![0] bcast_S8192_S8192x1_0 : (⟨S8192, .i32⟩ : BufTy).Contents (Elt F) → (⟨S8192x1, .i32⟩ : BufTy).Contents (Elt F)),
    nullary main_c_4 (constantI S_ 32 0#32),
    unary main_c_4 main_v22 (broadcastInDim S8192x1 ![] bcast_S_S8192x1 : (⟨S_, .i32⟩ : BufTy).Contents (Elt F) → (⟨S8192x1, .i32⟩ : BufTy).Contents (Elt F)),
    binary main_v21 main_v22 main_v23 (cmpi .slt : (⟨S8192x1, .i32⟩ : BufTy).Contents (Elt F) → (⟨S8192x1, .i32⟩ : BufTy).Contents (Elt F) → (⟨S8192x1, .i1⟩ : BufTy).Contents (Elt F)),
    nullary main_c_5 (constantI S_ 32 8192#32),
    unary main_c_5 main_v24 (broadcastInDim S8192x1 ![] bcast_S_S8192x1 : (⟨S_, .i32⟩ : BufTy).Contents (Elt F) → (⟨S8192x1, .i32⟩ : BufTy).Contents (Elt F)),
    binary main_v21 main_v24 main_v25 (addi : (⟨S8192x1, .i32⟩ : BufTy).Contents (Elt F) → (⟨S8192x1, .i32⟩ : BufTy).Contents (Elt F) → (⟨S8192x1, .i32⟩ : BufTy).Contents (Elt F)),
    ternary main_v23 main_v25 main_v21 main_v26 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    nullary main_c_6 (constantI S_ 32 0#32),
    unary main_c_6 main_v27 (broadcastInDim S8192x4 ![] bcast_S_S8192x4 : (⟨S_, .i32⟩ : BufTy).Contents (Elt F) → (⟨S8192x4, .i32⟩ : BufTy).Contents (Elt F)),
    binary main_v2 main_v27 main_v28 (cmpi .slt : (⟨S8192x4, .i32⟩ : BufTy).Contents (Elt F) → (⟨S8192x4, .i32⟩ : BufTy).Contents (Elt F) → (⟨S8192x4, .i1⟩ : BufTy).Contents (Elt F)),
    nullary main_c_7 (constantI S_ 32 18180#32),
    unary main_c_7 main_v29 (broadcastInDim S8192x4 ![] bcast_S_S8192x4 : (⟨S_, .i32⟩ : BufTy).Contents (Elt F) → (⟨S8192x4, .i32⟩ : BufTy).Contents (Elt F)),
    binary main_v2 main_v29 main_v30 (addi : (⟨S8192x4, .i32⟩ : BufTy).Contents (Elt F) → (⟨S8192x4, .i32⟩ : BufTy).Contents (Elt F) → (⟨S8192x4, .i32⟩ : BufTy).Contents (Elt F)),
    ternary main_v28 main_v30 main_v2 main_v31 (select : (⟨S8192x4, .i1⟩ : BufTy).Contents (Elt F) → (⟨S8192x4, .i32⟩ : BufTy).Contents (Elt F) → (⟨S8192x4, .i32⟩ : BufTy).Contents (Elt F) → (⟨S8192x4, .i32⟩ : BufTy).Contents (Elt F)),
    unary main_v26 main_v32 (broadcastInDim S8192x4 ![0, 1] bcast_S8192x1_S8192x4_0_1 : (⟨S8192x1, .i32⟩ : BufTy).Contents (Elt F) → (⟨S8192x4, .i32⟩ : BufTy).Contents (Elt F)),
    unary main_v32 main_v33 (broadcastInDim S8192x4x1 ![0, 1] bcast_S8192x4_S8192x4x1_0_1 : (⟨S8192x4, .i32⟩ : BufTy).Contents (Elt F) → (⟨S8192x4x1, .i32⟩ : BufTy).Contents (Elt F)),
    unary main_v31 main_v34 (broadcastInDim S8192x4x1 ![0, 1] bcast_S8192x4_S8192x4x1_0_1 : (⟨S8192x4, .i32⟩ : BufTy).Contents (Elt F) → (⟨S8192x4x1, .i32⟩ : BufTy).Contents (Elt F)),
    binary main_v33 main_v34 main_v35 (cat35 (F := F)),
    nullary main_cst_8 (constant S_ .f32 0x3F800000#32),
    unary main_cst_8 main_v36 (broadcastInDim S8192x4 ![] bcast_S_S8192x4 : (⟨S_, .f32⟩ : BufTy).Contents (Elt F) → (⟨S8192x4, .f32⟩ : BufTy).Contents (Elt F)),
    ternary main_v19 main_v35 main_v36 main_v37 ((fun x i u => Host.scatter scatter_S8192x18180_S8192x4x2_S8192x4_n_01_01_2 (fun _ b => b) x i u) : (⟨S8192x18180, .f32⟩ : BufTy).Contents (Elt F) → (⟨S8192x4x2, .i32⟩ : BufTy).Contents (Elt F) → (⟨S8192x4, .f32⟩ : BufTy).Contents (Elt F) → (⟨S8192x18180, .f32⟩ : BufTy).Contents (Elt F)),
    binary main_arg0 main_v37 main_v38 (cat38 (F := F)),
    binary main_v38 main_arg2 main_v39 ((fun l r => Host.dotGeneral dot_S8192x18183_S18183x16_S8192x16_1_0_0_1_n_n none l r) : (⟨S8192x18183, .f32⟩ : BufTy).Contents (Elt F) → (⟨S18183x16, .f32⟩ : BufTy).Contents (Elt F) → (⟨S8192x16, .f32⟩ : BufTy).Contents (Elt F)),
    binary main_v39 main_v39 main_v40 (mulf : (⟨S8192x16, .f32⟩ : BufTy).Contents (Elt F) → (⟨S8192x16, .f32⟩ : BufTy).Contents (Elt F) → (⟨S8192x16, .f32⟩ : BufTy).Contents (Elt F)),
    binary main_v38 main_v38 main_v41 (mulf : (⟨S8192x18183, .f32⟩ : BufTy).Contents (Elt F) → (⟨S8192x18183, .f32⟩ : BufTy).Contents (Elt F) → (⟨S8192x18183, .f32⟩ : BufTy).Contents (Elt F)),
    binary main_arg2 main_arg2 main_v42 (mulf : (⟨S18183x16, .f32⟩ : BufTy).Contents (Elt F) → (⟨S18183x16, .f32⟩ : BufTy).Contents (Elt F) → (⟨S18183x16, .f32⟩ : BufTy).Contents (Elt F)),
    binary main_v41 main_v42 main_v43 ((fun l r => Host.dotGeneral dot_S8192x18183_S18183x16_S8192x16_1_0_0_1_n_n none l r) : (⟨S8192x18183, .f32⟩ : BufTy).Contents (Elt F) → (⟨S18183x16, .f32⟩ : BufTy).Contents (Elt F) → (⟨S8192x16, .f32⟩ : BufTy).Contents (Elt F)),
    binary main_v40 main_v43 main_v44 (subf : (⟨S8192x16, .f32⟩ : BufTy).Contents (Elt F) → (⟨S8192x16, .f32⟩ : BufTy).Contents (Elt F) → (⟨S8192x16, .f32⟩ : BufTy).Contents (Elt F)),
    nullary main_cst_9 (constant S_ .f32 0x00000000#32),
    binary main_v44 main_cst_9 main_v45 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    nullary main_cst_10 (constant S_ .f32 0x3F000000#32),
    unary main_cst_10 main_v46 (broadcastInDim S8192 ![] bcast_S_S8192 : (⟨S_, .f32⟩ : BufTy).Contents (Elt F) → (⟨S8192, .f32⟩ : BufTy).Contents (Elt F)),
    binary main_v46 main_v45 main_v47 (mulf : (⟨S8192, .f32⟩ : BufTy).Contents (Elt F) → (⟨S8192, .f32⟩ : BufTy).Contents (Elt F) → (⟨S8192, .f32⟩ : BufTy).Contents (Elt F)),
    binary main_v18 main_v47 main_v48 (addf : (⟨S8192, .f32⟩ : BufTy).Contents (Elt F) → (⟨S8192, .f32⟩ : BufTy).Contents (Elt F) → (⟨S8192, .f32⟩ : BufTy).Contents (Elt F)),
    unary main_v48 main_v49 (broadcastInDim S8192x1 ![0] bcast_S8192_S8192x1_0 : (⟨S8192, .f32⟩ : BufTy).Contents (Elt F) → (⟨S8192x1, .f32⟩ : BufTy).Contents (Elt F)) ]

set_option maxRecDepth 8192 in
set_option maxHeartbeats 4000000 in
/-- The program is the straight line of its operations: both unfold to the same chain of steps. -/
theorem main_eq (c : Dev nD) : main (F := F) c = seq ops := rfl
/-- The signature scopes no buffer of the core. -/
theorem scopedRefs_eq : (Finset.univ.filter fun b : Ref sig .tc => b.isScoped) = ∅ := by decide
/-- The signature scopes no semaphore of the core. -/
theorem scopedSems_eq : (Finset.univ.filter fun sm : SemLoc sig => sm.isScoped .tc) = ∅ := by decide
set_option maxRecDepth 8192 in
/-- Every operation touches buffers of the core only. -/
theorem ops_sub : (ops : List (HloOp τ sig (Elt F))).Forall fun op => op.bufs ⊆ tcRefs τ sig :=
  ⟨nullary_bufs_sub .., unary_bufs_sub .., unary_bufs_sub .., binary_bufs_sub .., reshape_bufs_sub .., unary_bufs_sub .., unary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., binary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., binary_bufs_sub .., unary_bufs_sub ..⟩

set_option maxRecDepth 8192 in
set_option maxHeartbeats 25600000 in
/-- On every device, for any float values, from any memory with zero counters: every weakly fair execution of
    the reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
        = Term.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HandRun

end
-- ==== Proof.RefReads.lean ====
/-
  The reference's lookups read at one entry, where every categorical id lies in its feature's range.

  The global id of sample b's feature j is its id plus the feature's band offset: a row of the table, never
  negative, so the wrap of negative ids leaves it alone. The bias lookup then reads the bias table at that
  row, and the scatter writes a one at column (global id) of row b, so that the one-hot row b holds a one
  exactly at the sample's four global ids and zero elsewhere.
-/
import proofs.«425805_j84920093376777_3_alg».proof.Proof.RefTerm
import proofs.«425805_j84920093376777_3_alg».proof.Proof.FmSpec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.Reads

open Cert.ReferenceIdeal Cert.ReferenceIdeal.Term Idealize.ShloMosaic Idealize.ShloMosaic.ValueIdx Cert.FM

variable [Facts]

open Idealize.ShloMosaic.StableHlo.Predicate in
/-- The band-offset table broadcast down the rows reads, at (b, j), feature j's offset. -/
theorem offWord_apply (b : Fin 8192) (j : Fin 4) :
    broadcastInDim S8192x4 ![0, 1] Facts₀.bcast_S1x4_S8192x4_0_1
        (broadcastInDim S1x4 ![1] Facts₀.bcast_S4_S1x4_1 (fun i => lit0 (S4.rowMajor i))) (ix2 b j)
      = BitVec.ofNat 32 (off j) := by
  have e : (ix2 b j : S8192x4.Idx) = ij b j := by
    funext a; match a with | ⟨0, _⟩ => rfl | ⟨1, _⟩ => rfl
  rw [e, bcast_cols]
  fin_cases j <;> rfl

/-- The global-id word of sample b's feature j, before the wrap: the id plus the offset, with no overflow. -/
theorem gidx_apply {xc : IVec S8192x4 32} (h : InBand xc) (b : Fin 8192) (j : Fin 4) :
    gidx xc (ix2 b j) = BitVec.ofNat 32 (gid xc b j).val := by
  have h1 := h b j
  have h2 := off_add_sz_le j
  show xc (ix2 b j) + _ = _
  rw [offWord_apply]
  apply BitVec.eq_of_toNat_eq
  rw [BitVec.toNat_add, BitVec.toNat_ofNat, BitVec.toNat_ofNat, gid_val h]
  omega

open Idealize.ShloMosaic.StableHlo.Predicate in
/-- With every id in range, the wrapped global-id word of sample b's feature j is the global row itself. -/
theorem gidxW_apply {xc : IVec S8192x4 32} (h : InBand xc) (b : Fin 8192) (j : Fin 4) :
    gidxW xc (ix2 b j) = BitVec.ofNat 32 (gid xc b j).val := by
  have hg := gidx_apply h b j
  have hlt : (gid xc b j).val < 18180 := (gid xc b j).isLt
  show Scalar.select (IntOp.cmpi .slt (gidx xc (ix2 b j)) 0#32) _ (gidx xc (ix2 b j)) = _
  have hc : IntOp.cmpi .slt (gidx xc (ix2 b j)) 0#32 = 0#1 := by
    apply eq_zero_of_ne_one
    rw [hg, slt_iff_toNat (by rw [BitVec.toNat_ofNat]; omega) (by decide)]
    simp
  rw [hc, select_zero, hg]

/-- The index a row sum over the second axis of an [8192 × 3] array visits: (b, k). -/
theorem lift3 (hR : S8192x3.Reduces [1] S8192) (b : Fin 8192) (k : Fin 3) : hR.lift (ix1 b) k = ix2 b k := by
  funext a; match a with | ⟨0, _⟩ => exact Fin.ext rfl | ⟨1, _⟩ => exact Fin.ext rfl

/-- The index a row sum over the second axis of an [8192 × 4] array visits: (b, j). -/
theorem lift4 (hR : S8192x4.Reduces [1] S8192) (b : Fin 8192) (j : Fin 4) : hR.lift (ix1 b) j = ix2 b j := by
  funext a; match a with | ⟨0, _⟩ => exact Fin.ext rfl | ⟨1, _⟩ => exact Fin.ext rfl

/-- The two spellings of the rank-1 index at coordinate k agree. -/
theorem ofFin_eq_ix1 {n : Nat} (k : Fin n) : Shape.Idx.ofFin k = ix1 k := by
  funext a; match a with | ⟨0, _⟩ => exact Fin.ext rfl

open Idealize.ShloMosaic.StableHlo.Predicate in
/-- The numeric linear term of row b: the sum over the three numeric features of feature times weight. -/
theorem biasNum_apply (x : FVec Ideal S8192x3 .f32) (nb : FVec Ideal S3 .f32) (b : Fin 8192) :
    biasNum (F := Ideal) x nb (ix1 b) = ∑ k : Fin 3, x (ix2 b k) * nb (ix1 k) := by
  have hR : S8192x3.Reduces [1] S8192 := by decide
  show Ideal.hostReduceAdd Facts₀.reducesTo_S8192x3_S8192_d1 _ (Ideal.ofBits .f32 0x00000000#32) (ix1 b) = _
  rw [Ideal.hostReduceAdd_single _ hR, Ideal.ofBits_zero_f32, zero_add]
  refine Finset.sum_congr rfl fun (k : Fin 3) _ => ?_
  rw [lift3, mulf_apply]
  have e : (ix2 b k : S8192x3.Idx) = ij b k := by
    funext a; match a with | ⟨0, _⟩ => rfl | ⟨1, _⟩ => rfl
  rw [e, bcast_cols, ofFin_eq_ix1]

/-- The start-index array of the lookups reads, at (b, j, 0), the index word at (b, j). -/
theorem idx3_apply (g : IVec S8192x4 32) (b : Fin 8192) (j : Fin 4) (k : Fin 1) :
    broadcastInDim S8192x4x1 ![0, 1] Facts₀.bcast_S8192x4_S8192x4x1_0_1 g (ix3 b j k) = g (ix2 b j) := by
  simp only [broadcastInDim]
  congr 1
  funext a
  match a with
  | ⟨0, _⟩ =>
    apply Fin.ext
    split
    · next h1 => change (8192 : Nat) = 1 at h1; omega
    · rfl
  | ⟨1, _⟩ =>
    apply Fin.ext
    split
    · next h1 => change (4 : Nat) = 1 at h1; omega
    · rfl

open Idealize.ShloMosaic.StableHlo.Predicate in
/-- A row number of the bias table, as a word, read signed and clamped into the table, is itself. -/
theorem clampRead (n : Nat) (hn : n < 18180) : min (BitVec.ofNat 32 n).toInt.toNat (18180 - 1) = n := by
  rw [toInt_ofNat_small _ (by omega), Int.toNat_natCast]
  omega

/-- The bias lookup at (b, j) reads the table at the word the start-index array holds there, read signed and
    clamped into the table. -/
theorem gatherCb_apply (cb : FVec Ideal S18180 .f32) (g : IVec S8192x4 32) (b : Fin 8192) (j : Fin 4) :
    Host.gather gather_S18180_S8192x4x1_S8192x4_n_0_n_n_0_2_1 cb
        (broadcastInDim S8192x4x1 ![0, 1] Facts₀.bcast_S8192x4_S8192x4x1_0_1 g) (ix2 b j)
      = cb (ix1 ⟨min (g (ix2 b j)).toInt.toNat (18180 - 1), by omega⟩) := by
  have hd : gather_S18180_S8192x4x1_S8192x4_n_0_n_n_0_2_1
      = takeDims 18180 8192 4 Facts₀.gather_S18180_S8192x4x1_S8192x4_n_0_n_n_0_2_1_wf := rfl
  have ht : takeIdx (ix2 b j : S8192x4.Idx) = ix3 b j 0 := by
    funext a; match a with | ⟨0, _⟩ => rfl | ⟨1, _⟩ => rfl | ⟨2, _⟩ => rfl
  have hi : broadcastInDim S8192x4x1 ![0, 1] Facts₀.bcast_S8192x4_S8192x4x1_0_1 g (takeIdx (ix2 b j : S8192x4.Idx)) = g (ix2 b j) := by
    rw [ht]; exact idx3_apply g b j 0
  rw [hd, gather_take_apply (by decide)]
  simp only [hi]

/-- The categorical linear term of row b: the sum of the bias table's entries at the sample's four global rows. -/
theorem biasCat_apply {xc : IVec S8192x4 32} (cb : FVec Ideal S18180 .f32) (h : InBand xc) (b : Fin 8192) :
    biasCat (F := Ideal) xc cb (ix1 b) = ∑ j : Fin 4, cb (ix1 (gid xc b j)) := by
  have hR : S8192x4.Reduces [1] S8192 := by decide
  show Ideal.hostReduceAdd Facts₀.reducesTo_S8192x4_S8192_d1 _ (Ideal.ofBits .f32 0x00000000#32) (ix1 b) = _
  rw [Ideal.hostReduceAdd_single _ hR, Ideal.ofBits_zero_f32, zero_add]
  refine Finset.sum_congr rfl fun (j : Fin 4) _ => ?_
  rw [lift4, gatherCb_apply]
  have e : (⟨min (gidxW xc (ix2 b j)).toInt.toNat (18180 - 1), by omega⟩ : Fin 18180) = gid xc b j := by
    apply Fin.ext
    show min (gidxW xc (ix2 b j)).toInt.toNat (18180 - 1) = _
    rw [gidxW_apply h]
    exact clampRead _ (gid xc b j).isLt
  rw [e]

/-- Row b's bias terms: the global bias, plus the numeric features times their weights, plus the four categorical
    biases at the sample's global rows. -/
theorem biasTerm_apply (x : FVec Ideal S8192x3 .f32) {xc : IVec S8192x4 32} (gb : FVec Ideal S1 .f32)
    (nb : FVec Ideal S3 .f32) (cb : FVec Ideal S18180 .f32) (h : InBand xc) (b : Fin 8192) :
    biasTerm (F := Ideal) x xc gb nb cb (ix1 b)
      = (gb (ix1 (0 : Fin 1)) + ∑ k : Fin 3, x (ix2 b k) * nb (ix1 k)) + ∑ j : Fin 4, cb (ix1 (gid xc b j)) := by
  show (shapeCast S_ gb Facts₀.shapeCasts_S1_S_ _ + biasNum (F := Ideal) x nb (ix1 b)) + biasCat (F := Ideal) xc cb (ix1 b) = _
  rw [biasNum_apply, biasCat_apply cb h]
  congr 2
  show gb _ = gb _
  congr 1
  funext a
  match a with
  | ⟨0, _⟩ => exact Subsingleton.elim (α := Fin 1) _ _

/-- The two spellings of the rank-2 index (p, q) agree. -/
theorem ix2_eq_ij {n m : Nat} (p : Fin n) (q : Fin m) :
    (ix2 p q : (⟨2, ![n, m]⟩ : Shape).Idx) = Idealize.ShloMosaic.StableHlo.Predicate.ij p q := by
  funext a; match a with | ⟨0, _⟩ => rfl | ⟨1, _⟩ => rfl

open Classical in
/-- A left fold whose every step writes the one value u at the position the step names, or leaves the array alone:
    at position i the result is u when some step names i, and the starting entry otherwise. -/
theorem foldl_hits {ι κ α : Type} (hit : ι → Option κ) (u : α) (step : (κ → α) → ι → κ → α)
    (hstep : ∀ r n i, step r n i = if hit n = some i then u else r i) (l : List ι) (r : κ → α) (i : κ) :
    l.foldl step r i = if ∃ n ∈ l, hit n = some i then u else r i := by
  induction l generalizing r with
  | nil => simp
  | cons n l ih =>
    rw [List.foldl_cons, ih, hstep]
    by_cases h1 : ∃ n' ∈ l, hit n' = some i
    · obtain ⟨n', hn', e⟩ := h1
      rw [if_pos ⟨n', hn', e⟩, if_pos ⟨n', List.mem_cons_of_mem _ hn', e⟩]
    · rw [if_neg h1]
      by_cases h2 : hit n = some i
      · rw [if_pos h2, if_pos ⟨n, List.mem_cons.2 (Or.inl rfl), h2⟩]
      · rw [if_neg h2, if_neg]
        rintro ⟨n', hn', e⟩
        rcases List.mem_cons.1 hn' with rfl | hm
        · exact h2 e
        · exact h1 ⟨n', hm, e⟩

open Classical in
/-- A scatter whose every update is the one value c and whose body keeps the update: entry i is c when some update
    position lands at i, and the operand's entry otherwise (the updates being equal, their order does not matter). -/
theorem scatter_const_apply {s si u : Shape} {w : Nat} {α : Type} (d : ScatterDims s si u) (x : s.Idx → α)
    (idx : IVec si w) (upd : u.Idx → α) (c : α) (hupd : ∀ j, upd j = c) (i : s.Idx) :
    Host.scatter d (fun _ b => b) x idx upd i = if ∃ j : u.Idx, d.resultIdx? j idx = some i then c else x i := by
  unfold Host.scatter
  refine (foldl_hits (fun n => d.resultIdx? (u.rowMajor.symm n) idx) c _ ?_ _ _ _).trans ?_
  · intro r n i'
    cases hres : d.resultIdx? (u.rowMajor.symm n) idx with
    | none => simp
    | some k =>
      by_cases hik : i' = k
      · subst hik; simp [hupd]
      · have hne : ¬ (some k = some i') := fun e => hik (Option.some.inj e).symm
        simp [hik, hne]
  · by_cases hE : ∃ j : u.Idx, d.resultIdx? j idx = some i
    · obtain ⟨j, hj⟩ := hE
      rw [if_pos ⟨u.rowMajor j, List.mem_finRange _, by rw [Equiv.symm_apply_apply]; exact hj⟩, if_pos ⟨j, hj⟩]
    · rw [if_neg hE, if_neg]
      rintro ⟨n, _, hn⟩
      exact hE ⟨_, hn⟩

open Idealize.ShloMosaic.StableHlo.Predicate in
/-- The wrapped row-number word of row b is b: a row number is never negative, so the wrap leaves it. -/
theorem rowIotaW_apply (b : Fin 8192) (k : Fin 1) : rowIotaW (ix2 b k : S8192x1.Idx) = BitVec.ofNat 32 b.val := by
  obtain rfl : k = 0 := Subsingleton.elim _ _
  have e : (ix2 b (0 : Fin 1) : S8192x1.Idx) = ixP b := by
    funext a; match a with | ⟨0, _⟩ => rfl | ⟨1, _⟩ => rfl
  have hr : rowIota (ix2 b (0 : Fin 1)) = BitVec.ofNat 32 b.val := by
    show broadcastInDim S8192x1 ![0] Facts₀.bcast_S8192_S8192x1_0 (iotaInDim S8192 32 0) _ = _
    rw [e, bcast_col1]
    rfl
  have hlt : b.val < 8192 := b.isLt
  show Scalar.select (IntOp.cmpi .slt (rowIota (ix2 b (0 : Fin 1))) 0#32) _ (rowIota (ix2 b (0 : Fin 1))) = _
  have hc : IntOp.cmpi .slt (rowIota (ix2 b (0 : Fin 1))) 0#32 = 0#1 := by
    apply eq_zero_of_ne_one
    rw [hr, slt_iff_toNat (by rw [BitVec.toNat_ofNat]; omega) (by decide)]
    simp
  rw [hc, select_zero, hr]

open Idealize.ShloMosaic.StableHlo.Predicate in
/-- The first component of the scatter's index pair at (b, j) is the row number b. -/
theorem scatIdx_row (xc : IVec S8192x4 32) (b : Fin 8192) (j : Fin 4) :
    scatIdx xc (ix3 b j (0 : Fin 2)) = BitVec.ofNat 32 b.val := by
  unfold scatIdx
  rw [concatenate_pair_apply_left (t := S8192x4x2) (s₁ := S8192x4x1) (s₂ := S8192x4x1) (2 : Fin 3) _ _ _ (ix3 b j (0 : Fin 2)) rfl (ix3 b j (0 : Fin 1))
    (by intro a; match a with | ⟨0, _⟩ => rfl | ⟨1, _⟩ => rfl | ⟨2, _⟩ => rfl)]
  rw [idx3_apply, ix2_eq_ij, bcast_of_col]
  have e : (ixP b : S8192x1.Idx) = ix2 b (0 : Fin 1) := by
    funext a; match a with | ⟨0, _⟩ => rfl | ⟨1, _⟩ => rfl
  rw [e, rowIotaW_apply]

/-- The second component of the scatter's index pair at (b, j) is the wrapped global-id word at (b, j). -/
theorem scatIdx_col (xc : IVec S8192x4 32) (b : Fin 8192) (j : Fin 4) :
    scatIdx xc (ix3 b j (1 : Fin 2)) = gidxW xc (ix2 b j) := by
  unfold scatIdx
  rw [concatenate_pair_apply_right (t := S8192x4x2) (s₁ := S8192x4x1) (s₂ := S8192x4x1) (2 : Fin 3) _ _ _ (ix3 b j (1 : Fin 2)) rfl rfl (ix3 b j (0 : Fin 1))
    (by intro a ha; match a with | ⟨0, _⟩ => rfl | ⟨1, _⟩ => rfl | ⟨2, _⟩ => exact absurd rfl ha) rfl]
  rw [idx3_apply]

/-- Update position (b', j) reads the two components of its index pair at (b', j, 0) and (b', j, 1). -/
theorem siIdx_apply (b' : Fin 8192) (j : Fin 4) (a : Fin 2)
    (ha : a ∈ scatter_S8192x18180_S8192x4x2_S8192x4_n_01_01_2.scatterDimsToOperandDims) :
    scatter_S8192x18180_S8192x4x2_S8192x4_n_01_01_2.siIdx (ix2 b' j)
        ⟨scatter_S8192x18180_S8192x4x2_S8192x4_n_01_01_2.scatterDimsToOperandDims.idxOf a, List.idxOf_lt_length_iff.2 ha⟩
      = ix3 b' j a := by
  funext e
  refine Fin.ext ?_
  match a, e with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl

open Idealize.ShloMosaic.StableHlo.Predicate in
/-- The row at which update position (b', j) lands: its own row number. -/
theorem start_row (xc : IVec S8192x4 32) (b' : Fin 8192) (j : Fin 4) :
    scatter_S8192x18180_S8192x4x2_S8192x4_n_01_01_2.start (ix2 b' j) (scatIdx xc) (0 : Fin 2) = (b'.val : Int) := by
  have hm : (0 : Fin 2) ∈ scatter_S8192x18180_S8192x4x2_S8192x4_n_01_01_2.scatterDimsToOperandDims :=
    List.mem_cons.2 (Or.inl rfl)
  have hlt : b'.val < 8192 := b'.isLt
  unfold ScatterDims.start
  rw [dif_pos hm, siIdx_apply b' j 0 hm, scatIdx_row, toInt_ofNat_small _ (by omega)]

open Idealize.ShloMosaic.StableHlo.Predicate in
/-- The column at which update position (b', j) lands: the global row of sample b' feature j. -/
theorem start_col {xc : IVec S8192x4 32} (h : InBand xc) (b' : Fin 8192) (j : Fin 4) :
    scatter_S8192x18180_S8192x4x2_S8192x4_n_01_01_2.start (ix2 b' j) (scatIdx xc) (1 : Fin 2)
      = ((gid xc b' j).val : Int) := by
  have hm : (1 : Fin 2) ∈ scatter_S8192x18180_S8192x4x2_S8192x4_n_01_01_2.scatterDimsToOperandDims :=
    List.mem_cons.2 (Or.inr (List.mem_cons.2 (Or.inl rfl)))
  have hlt : (gid xc b' j).val < 18180 := (gid xc b' j).isLt
  unfold ScatterDims.start
  rw [dif_pos hm, siIdx_apply b' j 1 hm, scatIdx_col, gidxW_apply h, toInt_ofNat_small _ (by omega)]

/-- Both operand axes are inserted window axes: the window coordinate is zero. -/
theorem window_zero (y : S8192x4.Idx) (a : Fin 2) : scatter_S8192x18180_S8192x4x2_S8192x4_n_01_01_2.window y a = 0 := by
  unfold ScatterDims.window
  rw [dif_neg]
  show a ∉ ([] : List (Fin 2))
  exact List.not_mem_nil

/-- An update position whose start plus window coordinate is, on every axis, the coordinate of an operand index i
    lands at i. -/
theorem resultIdx_eq {s si u : Shape} {w : Nat} (d : ScatterDims s si u) (j : u.Idx) (idx : IVec si w) (i : s.Idx)
    (hi : ∀ a, d.start j idx a + d.window j a = ((i a).val : Int)) : d.resultIdx? j idx = some i := by
  have H : ∀ a, 0 ≤ d.start j idx a + d.window j a ∧ d.start j idx a + d.window j a < s.size a := by
    intro a
    have := (i a).isLt
    rw [hi a]
    omega
  unfold ScatterDims.resultIdx?
  rw [dif_pos H]
  congr 1
  funext a
  apply Fin.ext
  show (d.start j idx a + d.window j a).toNat = (i a).val
  rw [hi a]
  omega

/-- Update position (b', j) lands at row b', column the global row of sample b' feature j: inside the operand. -/
theorem resultIdx_apply {xc : IVec S8192x4 32} (h : InBand xc) (b' : Fin 8192) (j : Fin 4) :
    scatter_S8192x18180_S8192x4x2_S8192x4_n_01_01_2.resultIdx? (ix2 b' j) (scatIdx xc)
      = some (ix2 b' (gid xc b' j)) := by
  refine resultIdx_eq _ _ _ _ (fun a => ?_)
  rw [window_zero]
  match a with
  | ⟨0, h0⟩ =>
    have e : (⟨0, h0⟩ : Fin 2) = 0 := rfl
    rw [e, start_row]
    rfl
  | ⟨1, h1⟩ =>
    have e : (⟨1, h1⟩ : Fin 2) = 1 := rfl
    rw [e, start_col h]
    rfl

/-- The one-hot row b holds a one at column c exactly when c is one of the sample's four global rows. -/
theorem onehot_apply {xc : IVec S8192x4 32} (h : InBand xc) (b : Fin 8192) (c : Fin 18180) :
    onehot (F := Ideal) xc (ix2 b c) = if ∃ j : Fin 4, gid xc b j = c then (1 : EReal) else 0 := by
  have hone : Ideal.ofBits .f32 0x3F800000#32 = (1 : EReal) := IdealRules.sign_bit.ideal_onePat .f32
  unfold onehot
  refine (scatter_const_apply _ _ _ _ (Ideal.ofBits .f32 0x3F800000#32) (fun _ => ?_) _).trans ?_
  · rfl
  by_cases hE : ∃ j : Fin 4, gid xc b j = c
  · obtain ⟨j, hj⟩ := hE
    rw [if_pos ⟨ix2 b j, by rw [resultIdx_apply h, ← hj]⟩, if_pos ⟨j, hj⟩, hone]
  · rw [if_neg hE, if_neg]
    · exact Ideal.ofBits_zero_f32
    · rintro ⟨y, hy⟩
      obtain ⟨b', j, rfl⟩ : ∃ (b' : Fin 8192) (j : Fin 4), y = ix2 b' j := ⟨y 0, y 1, eq_ix2 y⟩
      rw [resultIdx_apply h] at hy
      have e := Option.some.inj hy
      have e0 : b' = b := congrFun e 0
      have e1 : gid xc b' j = c := congrFun e 1
      exact hE ⟨j, by rw [← e0]; exact e1⟩

end Cert.ReferenceIdeal.Reads

end
-- ==== Proof.RefDot.lean ====
/-
  The reference's two matrix products and its interaction sum, read at one entry.

  Row b of the feature matrix is the three numeric features followed by the one-hot row, which holds a one at
  the sample's four distinct global rows g(0..3) and zero elsewhere. So its product with column d of a table w
  splits into the numeric part Σ_k x_k·w[k,d] and the four looked-up rows Σ_j w[3 + g_j, d]: a zero entry
  contributes nothing and a one contributes the table entry itself. The squared matrix has the same zero-one
  part, so the product of the squares splits the same way.
-/
import proofs.«425805_j84920093376777_3_alg».proof.Proof.RefTerm
import proofs.«425805_j84920093376777_3_alg».proof.Proof.FmSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Dot

open Cert.ReferenceIdeal Cert.ReferenceIdeal.Term Idealize.ShloMosaic Idealize.ShloMosaic.ValueIdx Cert.FM

variable [Facts]

/-! ### A zero-one row against a table: the sum splits into the leading part and the looked-up rows -/

/-- A row that starts with three numbers and continues with ones at the injective places g(0..3) and zeros
    elsewhere, times a column: the three leading products plus the column's entries at the four places. A zero
    entry contributes nothing and a one contributes the column's entry, on the extended reals without any
    finiteness. -/
theorem sum_zero_one_row (f w : Fin 18183 → EReal) (x : Fin 3 → EReal) (g : Fin 4 → Fin 18180)
    (hg : Function.Injective g) [∀ c : Fin 18180, Decidable (∃ j : Fin 4, g j = c)]
    (hx : ∀ k : Fin 3, f ⟨k.val, by omega⟩ = x k)
    (hc : ∀ c : Fin 18180, f ⟨3 + c.val, by omega⟩ = if ∃ j : Fin 4, g j = c then (1 : EReal) else 0) :
    ∑ i : Fin 18183, f i * w i
      = ∑ k : Fin 3, x k * w ⟨k.val, by omega⟩ + ∑ j : Fin 4, w ⟨3 + (g j).val, by omega⟩ := by
  have h18 : 3 + 18180 = 18183 := by norm_num
  rw [← Equiv.sum_comp (finCongr h18) (fun i => f i * w i), Fin.sum_univ_add]
  have ek : ∀ k : Fin 3, finCongr h18 (Fin.castAdd 18180 k) = ⟨k.val, by omega⟩ := fun k => Fin.ext rfl
  have ec : ∀ c : Fin 18180, finCongr h18 (Fin.natAdd 3 c) = ⟨3 + c.val, by omega⟩ := fun c => Fin.ext rfl
  have e : ∀ c : Fin 18180, f (finCongr h18 (Fin.natAdd 3 c)) * w (finCongr h18 (Fin.natAdd 3 c))
      = if ∃ j : Fin 4, g j = c then w ⟨3 + c.val, by omega⟩ else 0 := by
    intro c
    rw [ec c, hc c]
    split_ifs
    · rw [one_mul]
    · rw [zero_mul]
  have hf : (Finset.univ.filter fun c : Fin 18180 => ∃ j : Fin 4, g j = c) = Finset.univ.image g := by
    ext c; simp
  rw [Finset.sum_congr rfl fun k _ => show f (finCongr h18 (Fin.castAdd 18180 k)) * w (finCongr h18 (Fin.castAdd 18180 k))
        = x k * w ⟨k.val, by omega⟩ by rw [ek k, hx k],
    Finset.sum_congr rfl fun c _ => e c, ← Finset.sum_filter, hf, Finset.sum_image fun a _ b _ h => hg h]

/-! ### The feature matrix at a column -/

/-- The first three columns of the feature matrix are the numeric features. -/
theorem xfm_num (x : FVec Ideal S8192x3 .f32) (xc : IVec S8192x4 32) (b : Fin 8192) (k : Fin 3) :
    xfm (F := Ideal) x xc (ix2 (n0 := 8192) (n1 := 18183) b ⟨k.val, by omega⟩) = x (ix2 b k) := by
  unfold xfm
  exact concatenate_pair_apply_left (1 : Fin S8192x18183.rank) x (onehot (F := Ideal) xc) _ _ rfl (ix2 b k)
    (fun a => by match a with | ⟨0, _⟩ => rfl | ⟨1, _⟩ => rfl)

/-- The columns from the fourth on are the one-hot row. -/
theorem xfm_cat (x : FVec Ideal S8192x3 .f32) (xc : IVec S8192x4 32) (b : Fin 8192) (c : Fin 18180) :
    xfm (F := Ideal) x xc (ix2 (n0 := 8192) (n1 := 18183) b ⟨3 + c.val, by omega⟩) = onehot (F := Ideal) xc (ix2 b c) := by
  unfold xfm
  exact concatenate_pair_apply_right (1 : Fin S8192x18183.rank) x (onehot (F := Ideal) xc) _ _ rfl rfl (ix2 b c)
    (fun a ha => by match a, ha with | ⟨0, _⟩, _ => rfl | ⟨1, _⟩, ha => exact absurd rfl ha)
    (by show c.val + 3 = 3 + c.val; omega)

/-! ### The matrix product at an entry: a sum over the 18183 contracted columns -/

/-- Row axis of the left operand: the result's row. -/
theorem lhs_dot_S8192x18183_S18183x16_S8192x16_1_0_0_1_n_n_0 (j : S8192x16.Idx)
    (k : dot_S8192x18183_S18183x16_S8192x16_1_0_0_1_n_n.contr.Idx) :
    (dot_S8192x18183_S18183x16_S8192x16_1_0_0_1_n_n.lhsIdx j k 0).val = (j 0).val := by
  unfold DotDims.lhsIdx
  rw [dif_neg (show ¬ (0 : Fin S8192x18183.rank) ∈ dot_S8192x18183_S18183x16_S8192x16_1_0_0_1_n_n.lhsBatch from List.not_mem_nil),
    dif_pos (show (0 : Fin S8192x18183.rank) ∈ dot_S8192x18183_S18183x16_S8192x16_1_0_0_1_n_n.lhsNonContracting from List.mem_singleton.mpr rfl)]
  rfl

/-- Column axis of the left operand: the contracted position. -/
theorem lhs_dot_S8192x18183_S18183x16_S8192x16_1_0_0_1_n_n_1 (j : S8192x16.Idx)
    (k : dot_S8192x18183_S18183x16_S8192x16_1_0_0_1_n_n.contr.Idx) :
    (dot_S8192x18183_S18183x16_S8192x16_1_0_0_1_n_n.lhsIdx j k 1).val = (k ⟨0, Nat.one_pos⟩).val :=
  dot_S8192x18183_S18183x16_S8192x16_1_0_0_1_n_n.lhsIdx_val_of_single rfl j k

/-- Row axis of the right operand: the contracted position. -/
theorem rhs_dot_S8192x18183_S18183x16_S8192x16_1_0_0_1_n_n_0 (j : S8192x16.Idx)
    (k : dot_S8192x18183_S18183x16_S8192x16_1_0_0_1_n_n.contr.Idx) :
    (dot_S8192x18183_S18183x16_S8192x16_1_0_0_1_n_n.rhsIdx j k 0).val = (k ⟨0, Nat.one_pos⟩).val :=
  dot_S8192x18183_S18183x16_S8192x16_1_0_0_1_n_n.rhsIdx_val_of_single rfl j k

/-- Column axis of the right operand: the result's column. -/
theorem rhs_dot_S8192x18183_S18183x16_S8192x16_1_0_0_1_n_n_1 (j : S8192x16.Idx)
    (k : dot_S8192x18183_S18183x16_S8192x16_1_0_0_1_n_n.contr.Idx) :
    (dot_S8192x18183_S18183x16_S8192x16_1_0_0_1_n_n.rhsIdx j k 1).val = (j 1).val := by
  unfold DotDims.rhsIdx
  rw [dif_neg (show ¬ (1 : Fin S18183x16.rank) ∈ dot_S8192x18183_S18183x16_S8192x16_1_0_0_1_n_n.rhsBatch from List.not_mem_nil),
    dif_pos (show (1 : Fin S18183x16.rank) ∈ dot_S8192x18183_S18183x16_S8192x16_1_0_0_1_n_n.rhsNonContracting from List.mem_singleton.mpr rfl)]
  rfl

/-- The product of an 8192 × 18183 matrix and an 18183 × 16 matrix at entry (b, d): the sum over the contracted
    column i of left (b, i) times right (i, d). -/
theorem dot_apply (l : FVec Ideal S8192x18183 .f32) (r : FVec Ideal S18183x16 .f32) (b : Fin 8192) (d : Fin 16) :
    Host.dotGeneral dot_S8192x18183_S18183x16_S8192x16_1_0_0_1_n_n none l r (ix2 b d)
      = ∑ i : Fin 18183, l (ix2 b i) * r (ix2 i d) := by
  show FloatOps.dotGeneral _ none _ l r (ix2 b d) = _
  rw [Ideal.dotGeneral_apply,
    ← Equiv.sum_comp (contrEquiv1 dot_S8192x18183_S18183x16_S8192x16_1_0_0_1_n_n 18183 rfl rfl).symm]
  refine Finset.sum_congr rfl fun c _ => ?_
  have c2 := contrEquiv1_symm_val dot_S8192x18183_S18183x16_S8192x16_1_0_0_1_n_n 18183 rfl rfl c
  have l2 : dot_S8192x18183_S18183x16_S8192x16_1_0_0_1_n_n.lhsIdx (ix2 b d)
      ((contrEquiv1 dot_S8192x18183_S18183x16_S8192x16_1_0_0_1_n_n 18183 rfl rfl).symm c) = ix2 b c := by
    funext ax; apply Fin.ext
    match ax with
    | ⟨0, _⟩ => exact lhs_dot_S8192x18183_S18183x16_S8192x16_1_0_0_1_n_n_0 _ _
    | ⟨1, _⟩ => exact (lhs_dot_S8192x18183_S18183x16_S8192x16_1_0_0_1_n_n_1 _ _).trans c2
  have r2 : dot_S8192x18183_S18183x16_S8192x16_1_0_0_1_n_n.rhsIdx (ix2 b d)
      ((contrEquiv1 dot_S8192x18183_S18183x16_S8192x16_1_0_0_1_n_n 18183 rfl rfl).symm c) = ix2 c d := by
    funext ax; apply Fin.ext
    match ax with
    | ⟨0, _⟩ => exact (rhs_dot_S8192x18183_S18183x16_S8192x16_1_0_0_1_n_n_0 _ _).trans c2
    | ⟨1, _⟩ => exact rhs_dot_S8192x18183_S18183x16_S8192x16_1_0_0_1_n_n_1 _ _
  rw [l2, r2]

/-! ### The two products and the interaction sum -/

/-- Row b of the feature matrix times column d of the table: the numeric part plus the four looked-up rows. -/
theorem prodXV_apply (x : FVec Ideal S8192x3 .f32) (xc : IVec S8192x4 32) (v : FVec Ideal S18183x16 .f32)
    (g : Fin 4 → Fin 18180) (hg : Function.Injective g) (b : Fin 8192)
    (hoh : ∀ c : Fin 18180, onehot (F := Ideal) xc (ix2 b c) = if ∃ j : Fin 4, g j = c then (1 : EReal) else 0)
    (d : Fin 16) :
    prodXV (F := Ideal) x xc v (ix2 b d)
      = ∑ k : Fin 3, x (ix2 b k) * v (ix2 (n0 := 18183) (n1 := 16) ⟨k.val, by omega⟩ d)
        + ∑ j : Fin 4, v (ix2 (n0 := 18183) (n1 := 16) ⟨3 + (g j).val, by omega⟩ d) := by
  unfold prodXV
  rw [dot_apply]
  exact sum_zero_one_row (fun i => xfm (F := Ideal) x xc (ix2 b i)) (fun i => v (ix2 i d)) (fun k => x (ix2 b k)) g hg
    (fun k => xfm_num x xc b k) (fun c => (xfm_cat x xc b c).trans (hoh c))

/-- Row b of the squared feature matrix times column d of the squared table, split the same way. -/
theorem prodX2V2_apply (x : FVec Ideal S8192x3 .f32) (xc : IVec S8192x4 32) (v : FVec Ideal S18183x16 .f32)
    (g : Fin 4 → Fin 18180) (hg : Function.Injective g) (b : Fin 8192)
    (hoh : ∀ c : Fin 18180, onehot (F := Ideal) xc (ix2 b c) = if ∃ j : Fin 4, g j = c then (1 : EReal) else 0)
    (d : Fin 16) :
    prodX2V2 (F := Ideal) x xc v (ix2 b d)
      = ∑ k : Fin 3, (x (ix2 b k) * x (ix2 b k))
            * (v (ix2 (n0 := 18183) (n1 := 16) ⟨k.val, by omega⟩ d) * v (ix2 (n0 := 18183) (n1 := 16) ⟨k.val, by omega⟩ d))
        + ∑ j : Fin 4, v (ix2 (n0 := 18183) (n1 := 16) ⟨3 + (g j).val, by omega⟩ d)
            * v (ix2 (n0 := 18183) (n1 := 16) ⟨3 + (g j).val, by omega⟩ d) := by
  unfold prodX2V2
  rw [dot_apply]
  -- the squared zero-one entry is the zero-one entry again
  have hsq : ∀ c : Fin 18180,
      xfm (F := Ideal) x xc (ix2 (n0 := 8192) (n1 := 18183) b ⟨3 + c.val, by omega⟩)
          * xfm (F := Ideal) x xc (ix2 (n0 := 8192) (n1 := 18183) b ⟨3 + c.val, by omega⟩)
        = if ∃ j : Fin 4, g j = c then (1 : EReal) else 0 := by
    intro c
    rw [xfm_cat, hoh c]
    split_ifs
    · rw [one_mul]
    · rw [zero_mul]
  have hnum : ∀ k : Fin 3,
      xfm (F := Ideal) x xc (ix2 (n0 := 8192) (n1 := 18183) b ⟨k.val, by omega⟩)
          * xfm (F := Ideal) x xc (ix2 (n0 := 8192) (n1 := 18183) b ⟨k.val, by omega⟩)
        = x (ix2 b k) * x (ix2 b k) := by
    intro k
    rw [xfm_num]
  exact sum_zero_one_row (fun i => xfm (F := Ideal) x xc (ix2 b i) * xfm (F := Ideal) x xc (ix2 b i))
    (fun i => v (ix2 i d) * v (ix2 i d)) (fun k => x (ix2 b k) * x (ix2 b k)) g hg hnum hsq

/-- Row b's interaction sum: over the sixteen embedding coordinates, the square of the summed rows minus the sum
    of the squared rows. -/
theorem inter_apply (x : FVec Ideal S8192x3 .f32) (xc : IVec S8192x4 32) (v : FVec Ideal S18183x16 .f32)
    (g : Fin 4 → Fin 18180) (hg : Function.Injective g) (b : Fin 8192)
    (hoh : ∀ c : Fin 18180, onehot (F := Ideal) xc (ix2 b c) = if ∃ j : Fin 4, g j = c then (1 : EReal) else 0) :
    inter (F := Ideal) x xc v (ix1 b)
      = ∑ d : Fin 16,
          ((∑ k : Fin 3, x (ix2 b k) * v (ix2 (n0 := 18183) (n1 := 16) ⟨k.val, by omega⟩ d)
              + ∑ j : Fin 4, v (ix2 (n0 := 18183) (n1 := 16) ⟨3 + (g j).val, by omega⟩ d))
            * (∑ k : Fin 3, x (ix2 b k) * v (ix2 (n0 := 18183) (n1 := 16) ⟨k.val, by omega⟩ d)
              + ∑ j : Fin 4, v (ix2 (n0 := 18183) (n1 := 16) ⟨3 + (g j).val, by omega⟩ d))
            - (∑ k : Fin 3, (x (ix2 b k) * x (ix2 b k))
                  * (v (ix2 (n0 := 18183) (n1 := 16) ⟨k.val, by omega⟩ d) * v (ix2 (n0 := 18183) (n1 := 16) ⟨k.val, by omega⟩ d))
              + ∑ j : Fin 4, v (ix2 (n0 := 18183) (n1 := 16) ⟨3 + (g j).val, by omega⟩ d)
                  * v (ix2 (n0 := 18183) (n1 := 16) ⟨3 + (g j).val, by omega⟩ d))) := by
  unfold inter
  show Ideal.hostReduceAdd Facts₀.reducesTo_S8192x16_S8192_d1 _ _ (ix1 b) = _
  rw [Ideal.hostReduceAdd_single Facts₀.reducesTo_S8192x16_S8192_d1 (by decide : S8192x16.Reduces [1] S8192),
    show constant (F := Ideal) S_ .f32 0x00000000#32 (Shape.Idx.first Facts₀.h_S_) = 0 from Ideal.ofBits_zero_f32, zero_add]
  refine Finset.sum_congr rfl fun (d : Fin 16) _ => ?_
  have hl : (by decide : S8192x16.Reduces [1] S8192).lift (ix1 b) d = ix2 b d := by
    funext a; apply Fin.ext
    match a with
    | ⟨0, _⟩ => rfl
    | ⟨1, _⟩ => rfl
  rw [hl, subf_apply, mulf_apply, prodXV_apply x xc v g hg b hoh d, prodX2V2_apply x xc v g hg b hoh d]

end Cert.ReferenceIdeal.Dot

end
-- ==== Proof.RefValue.lean ====
/-
  The reference's result is the score column, where every categorical id lies in its feature's range.

  Row b of the result is the bias terms plus one half of the interaction sum; the bias terms are the global
  bias, the numeric linear term and the four looked-up categorical biases, and the interaction sum splits, over
  the sample's four distinct global rows, into the numeric part and the four looked-up embedding rows.
-/
import proofs.«425805_j84920093376777_3_alg».proof.Proof.RefTerm
import proofs.«425805_j84920093376777_3_alg».proof.Proof.FmSpec
import proofs.«425805_j84920093376777_3_alg».proof.Proof.RefReads
import proofs.«425805_j84920093376777_3_alg».proof.Proof.RefDot
import Idealize.ShloMosaic.Lib.ValueIdx
import Idealize.ShloMosaic.Lib.StableHlo.Predicate

noncomputable section

open scoped BigOperators

namespace Cert.ReferenceIdeal.RefValue

open Cert.ReferenceIdeal Cert.ReferenceIdeal.Term Idealize.ShloMosaic Idealize.ShloMosaic.ValueIdx Cert.FM

variable [Facts]

/-- A vector laid out as a column reads, at (b, 0), the vector at b. -/
theorem column_apply {α : Type} (h : S8192.BroadcastsInDim S8192x1 (![0] : Fin 1 → Fin S8192x1.rank))
    (w : S8192.Idx → α) (b : Fin 8192) :
    broadcastInDim S8192x1 ![0] h w (ix2 b (0 : Fin 1)) = w (ix1 b) := by
  simp only [broadcastInDim]
  congr 1
  funext a
  have ha : a = 0 := Subsingleton.elim _ _
  subst ha
  apply Fin.ext
  have hb := b.isLt
  split
  · next h1 => change (8192 : ℕ) = 1 at h1; omega
  · rfl

/-- THE REFERENCE'S RESULT is the score column. -/
theorem refOut_eq (x : FVec Ideal S8192x3 .f32) (xc : IVec S8192x4 32) (v : FVec Ideal S18183x16 .f32)
    (gb : FVec Ideal S1 .f32) (nb : FVec Ideal S3 .f32) (cb : FVec Ideal S18180 .f32) (h : InBand xc) :
    refOut (F := Ideal) x xc v gb nb cb = Y x xc v gb nb cb := by
  funext i
  obtain ⟨b, rfl⟩ : ∃ b : Fin 8192, i = ix2 b (0 : Fin 1) :=
    ⟨i 0, by
      funext a
      match a with
      | ⟨0, _⟩ => rfl
      | ⟨1, _⟩ => exact Fin.ext (by have h1 : (i 1).val < 1 := (i 1).isLt; show (i 1).val = 0; omega)⟩
  unfold refOut
  rw [column_apply, addf_apply, mulf_apply, Reads.biasTerm_apply x gb nb cb h b,
    Dot.inter_apply x xc v (gid xc b) (gid_injective h b) b (Reads.onehot_apply h b),
    StableHlo.Predicate.bcast_scalar _ Facts₀.h_S_, constant_apply]
  rfl

end Cert.ReferenceIdeal.RefValue

end
-- ==== Proof.KerPayload.lean ====
/-
  The kernel body's result at one row, as the row score of the blocks' entries.

  The body multiplies the numeric block by the three numeric embedding rows (and their squares likewise),
  sums the four gathered rows and their squares over the feature axis, sums the numeric linear term and the
  four gathered biases, and combines them; at row r this is the row score of row r's entries.
-/
import proofs.«425805_j84920093376777_3_alg».proof.Proof.Gen.KernelIdeal.Skeleton
import proofs.«425805_j84920093376777_3_alg».proof.Proof.FmSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The sums over one axis, read at explicit coordinates -/

/-- The sum of a [2048, 3] block over its second axis, at row r, is the sum over k of the entries (r, k). -/
theorem sum_S2048x3 (src : FVec Ideal S2048x3 .f32) (r : Fin 2048) :
    multiReduction (F := Ideal) .add [1] S2048 src 0x00000000#32 reduces_S2048x3_S2048 (.inl rfl) rfl (ix1 r)
      = ∑ k : Fin 3, src (ix2 r k) := by
  refine (Ideal.multiReduction_add_single src 0x00000000#32 reduces_S2048x3_S2048 (.inl rfl) rfl (ix1 r)).trans ?_
  refine Finset.sum_congr rfl fun k _ => congrArg src ?_
  funext a
  match a with
  | ⟨0, _⟩ => rfl
  | ⟨1, _⟩ => rfl

/-- The sum of a [2048, 4] block over its second axis, at row r, is the sum over j of the entries (r, j). -/
theorem sum_S2048x4 (src : FVec Ideal S2048x4 .f32) (r : Fin 2048) :
    multiReduction (F := Ideal) .add [1] S2048 src 0x00000000#32 reduces_S2048x4_S2048 (.inl rfl) rfl (ix1 r)
      = ∑ j : Fin 4, src (ix2 r j) := by
  refine (Ideal.multiReduction_add_single src 0x00000000#32 reduces_S2048x4_S2048 (.inl rfl) rfl (ix1 r)).trans ?_
  refine Finset.sum_congr rfl fun k _ => congrArg src ?_
  funext a
  match a with
  | ⟨0, _⟩ => rfl
  | ⟨1, _⟩ => rfl

/-- The sum of a [2048, 16] block over its second axis, at row r, is the sum over d of the entries (r, d). -/
theorem sum_S2048x16 (src : FVec Ideal S2048x16 .f32) (r : Fin 2048) :
    multiReduction (F := Ideal) .add [1] S2048 src 0x00000000#32 reduces_S2048x16_S2048 (.inl rfl) rfl (ix1 r)
      = ∑ d : Fin 16, src (ix2 r d) := by
  refine (Ideal.multiReduction_add_single src 0x00000000#32 reduces_S2048x16_S2048 (.inl rfl) rfl (ix1 r)).trans ?_
  refine Finset.sum_congr rfl fun k _ => congrArg src ?_
  funext a
  match a with
  | ⟨0, _⟩ => rfl
  | ⟨1, _⟩ => rfl

/-- The sum of a [2048, 4, 16] block over its middle axis, at (r, d), is the sum over j of the entries (r, j, d). -/
theorem sum_S2048x4x16 (src : FVec Ideal S2048x4x16 .f32) (r : Fin 2048) (d : Fin 16) :
    multiReduction (F := Ideal) .add [1] S2048x16 src 0x00000000#32 reduces_S2048x4x16_S2048x16 (.inl rfl) rfl (ix2 r d)
      = ∑ j : Fin 4, src (ix3 r j d) := by
  refine (Ideal.multiReduction_add_single src 0x00000000#32 reduces_S2048x4x16_S2048x16 (.inl rfl) rfl (ix2 r d)).trans ?_
  refine Finset.sum_congr rfl fun k _ => congrArg src ?_
  funext a
  match a with
  | ⟨0, _⟩ => rfl
  | ⟨1, _⟩ => rfl
  | ⟨2, _⟩ => rfl

/-! ## The layout operations, read at explicit coordinates -/

/-- A [2048] vector laid out as a [2048, 1] column reads, at (r, 0), the vector at r. -/
theorem col_S2048 {α : Type} (v : S2048.Idx → α) (r : Fin 2048) (u : Fin 1) :
    shapeCast S2048x1 v shapeCasts_S2048_S2048x1 (ix2 r u) = v (ix1 r) :=
  shapeCast_apply v shapeCasts_S2048_S2048x1 _ _ (by
    have hu : u.val = 0 := by omega
    rw [Shape.rowMajor_val_two, Shape.rowMajor_val_one]
    show r.val = r.val * 1 + u.val
    rw [hu, Nat.mul_one, Nat.add_zero])

/-- A [2048, 4, 1] block with its unit axis dropped reads, at (r, j), the block at (r, j, 0). -/
theorem drop_S2048x4x1 {α : Type} (v : S2048x4x1.Idx → α) (r : Fin 2048) (j : Fin 4) :
    shapeCast S2048x4 v shapeCasts_S2048x4x1_S2048x4 (ix2 r j) = v (ix3 r j (0 : Fin 1)) :=
  shapeCast_apply v shapeCasts_S2048x4x1_S2048x4 _ _ (by
    rw [Shape.rowMajor_val_three, Shape.rowMajor_val_two]
    show (r.val * 4 + j.val) * 1 + 0 = r.val * 4 + j.val
    rw [Nat.mul_one, Nat.add_zero])

/-- The first sixteen lanes of a [2048, 4, 17] block read, at (r, j, d), the block at (r, j, d). -/
theorem lanes_S2048x4x17 {α : Type} (v : S2048x4x17.Idx → α) (r : Fin 2048) (j : Fin 4) (d : Fin 16) :
    extractStridedSlice S2048x4x16 ![0, 0, 0] v slices_S2048x4x17_o0_0_0_S2048x4x16 (ix3 r j d)
      = v (ix3 r j (Fin.castSucc d)) :=
  extractStridedSlice_apply _ v _ _ _ (fun ax => by
    match ax with
    | ⟨0, _⟩ => exact (Nat.zero_add _).symm
    | ⟨1, _⟩ => exact (Nat.zero_add _).symm
    | ⟨2, _⟩ => exact (Nat.zero_add _).symm)

/-- The last lane of a [2048, 4, 17] block reads, at (r, j, 0), the block at (r, j, 16). -/
theorem last_S2048x4x17 {α : Type} (v : S2048x4x17.Idx → α) (r : Fin 2048) (j : Fin 4) (u : Fin 1) :
    extractStridedSlice S2048x4x1 ![0, 0, 16] v slices_S2048x4x17_o0_0_16_S2048x4x1 (ix3 r j u)
      = v (ix3 r j (16 : Fin 17)) :=
  extractStridedSlice_apply _ v _ _ _ (fun ax => by
    match ax with
    | ⟨0, _⟩ => exact (Nat.zero_add _).symm
    | ⟨1, _⟩ => exact (Nat.zero_add _).symm
    | ⟨2, _⟩ =>
      have hu : u.val = 0 := by omega
      show 16 = 16 + u.val
      rw [hu])

/-- The one entry of a [1] vector taken at position 0. -/
theorem at0_S1 {α : Type} (v : S1.Idx → α) : extractAt ![0] v inpos_S1_p0 = v (ix1 (0 : Fin 1)) :=
  congrArg v (funext fun a => by match a with | ⟨0, _⟩ => rfl)

/-! ## The matrix product, read at explicit coordinates -/

/-- The left operand's row is the result's row. -/
theorem lhs_axis0 (j : S2048x16.Idx) (k : dot_S2048x3_S3x16_S2048x16_1_0_0_1_n_n.contr.Idx) :
    (dot_S2048x3_S3x16_S2048x16_1_0_0_1_n_n.lhsIdx j k (0 : Fin 2)).val = (j (0 : Fin 2)).val := by
  unfold DotDims.lhsIdx
  rw [dif_neg (show ¬(0 : Fin S2048x3.rank) ∈ dot_S2048x3_S3x16_S2048x16_1_0_0_1_n_n.lhsBatch by decide),
    dif_pos (show (0 : Fin S2048x3.rank) ∈ dot_S2048x3_S3x16_S2048x16_1_0_0_1_n_n.lhsNonContracting by decide)]
  rfl

/-- The left operand's column is the contracted coordinate. -/
theorem lhs_axis1 (j : S2048x16.Idx) (k : dot_S2048x3_S3x16_S2048x16_1_0_0_1_n_n.contr.Idx) :
    (dot_S2048x3_S3x16_S2048x16_1_0_0_1_n_n.lhsIdx j k (1 : Fin 2)).val = (k ⟨0, by decide⟩).val :=
  dot_S2048x3_S3x16_S2048x16_1_0_0_1_n_n.lhsIdx_val_of_single rfl j k

/-- The right operand's row is the contracted coordinate. -/
theorem rhs_axis0 (j : S2048x16.Idx) (k : dot_S2048x3_S3x16_S2048x16_1_0_0_1_n_n.contr.Idx) :
    (dot_S2048x3_S3x16_S2048x16_1_0_0_1_n_n.rhsIdx j k (0 : Fin 2)).val = (k ⟨0, by decide⟩).val :=
  dot_S2048x3_S3x16_S2048x16_1_0_0_1_n_n.rhsIdx_val_of_single rfl j k

/-- The right operand's column is the result's column. -/
theorem rhs_axis1 (j : S2048x16.Idx) (k : dot_S2048x3_S3x16_S2048x16_1_0_0_1_n_n.contr.Idx) :
    (dot_S2048x3_S3x16_S2048x16_1_0_0_1_n_n.rhsIdx j k (1 : Fin 2)).val = (j (1 : Fin 2)).val := by
  unfold DotDims.rhsIdx
  rw [dif_neg (show ¬(1 : Fin S3x16.rank) ∈ dot_S2048x3_S3x16_S2048x16_1_0_0_1_n_n.rhsBatch by decide),
    dif_pos (show (1 : Fin S3x16.rank) ∈ dot_S2048x3_S3x16_S2048x16_1_0_0_1_n_n.rhsNonContracting by decide)]
  rfl

/-- The product of a [2048, 3] block by a [3, 16] block into the zero splat, at (r, d), is the sum over k of the
    products of the entries (r, k) and (k, d). -/
theorem matmul_S2048x3_S3x16 {φ₁ φ₂ : FTy} (A : FVec Ideal S2048x3 φ₁) (B : FVec Ideal S3x16 φ₂) (r : Fin 2048) (d : Fin 16) :
    matmul dot_S2048x3_S3x16_S2048x16_1_0_0_1_n_n none A B (constant (F := Ideal) S2048x16 .f32 0x00000000#32) (ix2 r d)
      = ∑ k : Fin 3, A (ix2 r k) * B (ix2 k d) := by
  show FloatOps.matmul dot_S2048x3_S3x16_S2048x16_1_0_0_1_n_n none A B (constant (F := Ideal) S2048x16 .f32 0x00000000#32) (ix2 r d) = _
  rw [Ideal.matmul_constant_zero_apply,
    ← Equiv.sum_comp (contrEquiv1 dot_S2048x3_S3x16_S2048x16_1_0_0_1_n_n 3 rfl rfl).symm]
  refine Finset.sum_congr rfl fun k _ => ?_
  have hk := contrEquiv1_symm_val dot_S2048x3_S3x16_S2048x16_1_0_0_1_n_n 3 rfl rfl k
  have hl : dot_S2048x3_S3x16_S2048x16_1_0_0_1_n_n.lhsIdx (ix2 r d)
      ((contrEquiv1 dot_S2048x3_S3x16_S2048x16_1_0_0_1_n_n 3 rfl rfl).symm k) = ix2 r k := by
    funext ax; apply Fin.ext
    match ax with
    | ⟨0, _⟩ => exact lhs_axis0 _ _
    | ⟨1, _⟩ => exact (lhs_axis1 _ _).trans hk
  have hr : dot_S2048x3_S3x16_S2048x16_1_0_0_1_n_n.rhsIdx (ix2 r d)
      ((contrEquiv1 dot_S2048x3_S3x16_S2048x16_1_0_0_1_n_n 3 rfl rfl).symm k) = ix2 k d := by
    funext ax; apply Fin.ext
    match ax with
    | ⟨0, _⟩ => exact (rhs_axis0 _ _).trans hk
    | ⟨1, _⟩ => exact rhs_axis1 _ _
  rw [hl, hr]

/-- The body's stored value at row r is the row score of row r's entries of the five loaded blocks. -/
theorem pay_apply (x0 : Vec Ideal S2048x3 .f32) (x1 : Vec Ideal S3x16 .f32) (x2 : Vec Ideal S3 .f32)
    (x3 : Vec Ideal S1 .f32) (x4 : Vec Ideal S2048x4x17 .f32) (r : Fin 2048) :
    k0_pay1 x0 x1 x2 x3 x4 (ix2 r (0 : Fin 1))
      = Cert.FM.fmRow (x3 (ix1 (0 : Fin 1))) (fun k => x0 (ix2 r k)) (fun k => x2 (ix1 k))
          (fun j => x4 (ix3 r j (16 : Fin 17))) (fun k d => x1 (ix2 k d))
          (fun j d => x4 (ix3 r j (Fin.castSucc d))) := by
  unfold k0_pay1
  -- the outer sums and products are pointwise; the three columns read their vectors at r, the global bias its one entry
  simp only [addf_apply, mulf_apply, broadcast_apply, col_S2048, at0_S1, shapeCast_self]
  -- the linear term, the bias term and the interaction term are each a sum over one axis at row r
  rw [sum_S2048x3, sum_S2048x4, sum_S2048x16]
  unfold Cert.FM.fmRow
  -- both sides are now the same arrangement of sums: they agree summand by summand
  refine congrArg₂ (· + ·) (congrArg₂ (· + ·) (congrArg₂ (· + ·) rfl (Finset.sum_congr rfl fun k _ => ?_))
    (Finset.sum_congr rfl fun j _ => ?_)) (congrArg₂ (· * ·) rfl (Finset.sum_congr rfl fun d _ => ?_))
  · -- the numeric linear weights are one row of three, repeated over the rows
    rw [mulf_apply, broadcastTo_1b_ab_apply, shapeCast_a_1a_apply]
  · -- a gathered bias is the last lane of its gathered row
    rw [drop_S2048x4x1, last_S2048x4x17]
  · -- at lane d: the square of (numeric product + sum of the gathered rows) minus (product of squares + sum of their squares)
    rw [subf_apply, mulf_apply, addf_apply, addf_apply, matmul_S2048x3_S3x16, matmul_S2048x3_S3x16,
      sum_S2048x4x16, sum_S2048x4x16]
    -- the narrowing format changes are the identity on extended reals; a gathered embedding row is the first sixteen lanes
    simp only [truncf_apply, mulf_apply, lanes_S2048x4x17]

end Cert.KernelIdeal.Payload

end
-- ==== Proof.KerTerm.lean ====
/-
  What the kernel's program computes before its launch, as terms of the arguments.

  Each categorical id is cut into its feature's range [0, size − 1] and moved by the feature's band offset
  to a global table row; the embedding table's categorical rows and the categorical biases are laid side by
  side as a 17-column table (16 embedding coordinates, then the bias); that table is looked up at the global
  rows, a lookup outside the table answered by a fill value. The numeric features' three embedding rows are
  the table's first three rows.
-/
import proofs.«425805_j84920093376777_3_alg».proof.KernelIdeal

noncomputable section

namespace Cert.KernelIdeal.Term

open Cert.KernelIdeal Idealize.ShloMosaic
open Facts₀ Facts

variable {F : FTy → Type} [FloatOps F] [Facts]

/-- The last id of each feature, size − 1, as a row. -/
def lastId : IVec S1x4 32 :=
  subi (broadcastInDim S1x4 ![1] bcast_S4_S1x4_1 (fun i => lit0 (S4.rowMajor i)))
    (broadcastInDim S1x4 ![] bcast_S_S1x4 (constantI S_ 32 1#32))

/-- The ids cut into their features' ranges: min (size − 1) (max 0 id). -/
def clipped (xc : IVec S8192x4 32) : IVec S8192x4 32 :=
  minsi (broadcastInDim S8192x4 ![0, 1] bcast_S1x4_S8192x4_0_1 lastId)
    (maxsi (broadcastInDim S8192x4 ![] bcast_S_S8192x4 (id (constantI S_ 32 0#32))) xc)

/-- Global rows: the cut ids plus the band offsets. -/
def gidx (xc : IVec S8192x4 32) : IVec S8192x4 32 :=
  addi (clipped xc) (broadcastInDim S8192x4 ![0, 1] bcast_S1x4_S8192x4_0_1
    (broadcastInDim S1x4 ![1] bcast_S4_S1x4_1 (fun i => lit1 (S4.rowMajor i))))

/-- The numeric features' embedding rows: rows 0 … 2 of the table. -/
def vnum (v : FVec F S18183x16 .f32) : FVec F S3x16 .f32 :=
  extractStridedSlice S3x16 ![0, 0] v slices_S18183x16_S3x16_0_0

/-- The looked-up table: categorical embedding rows (rows 3 … of the table) beside the categorical biases. -/
def catTable (v : FVec F S18183x16 .f32) (cb : FVec F S18180 .f32) : FVec F S18180x17 .f32 :=
  concatenate S18180x17 1
    [⟨S18180x16, extractStridedSlice S18180x16 ![3, 0] v slices_S18183x16_S18180x16_3_0⟩,
     ⟨S18180x1, broadcastInDim S18180x1 ![0] bcast_S18180_S18180x1_0 cb⟩]
    concatenates_S18180x16_S18180x1_S18180x17_d1

/-- Global rows with a negative one moved up by the table length, as lookup indices. -/
def takeIdx (xc : IVec S8192x4 32) : IVec S8192x4x1 32 :=
  broadcastInDim S8192x4x1 ![0, 1] bcast_S8192x4_S8192x4x1_0_1
    (select (cmpi .slt (gidx xc) (broadcastInDim S8192x4 ![] bcast_S_S8192x4 (constantI S_ 32 0#32)))
      (addi (gidx xc) (broadcastInDim S8192x4 ![] bcast_S_S8192x4 (constantI S_ 32 18180#32))) (gidx xc))

/-- Which lookups fall inside the table: 0 ≤ index ≤ 18179. -/
def takeMask (xc : IVec S8192x4 32) : IVec S8192x4 1 :=
  Host.reduce IntOp.andi
    (andi (cmpi .sge (takeIdx xc) (broadcastInDim S8192x4x1 ![] bcast_S_S8192x4x1 (constantI S_ 32 0#32)))
      (cmpi .sle (takeIdx xc) (broadcastInDim S8192x4x1 ![0, 1, 2] bcast_S1x1x1_S8192x4x1_0_1_2
        (broadcastInDim S1x1x1 ![2] bcast_S1_S1x1x1_2 (constantI S1 32 18179#32)))))
    (constantI S_ 1 1#1) reducesTo_S8192x4x1_S8192x4_d2 h_S_

/-- The gathered rows: for every sample and feature the 17 entries of the looked-up table row, the fill value where
    the lookup falls outside the table. -/
def gathered (xc : IVec S8192x4 32) (v : FVec F S18183x16 .f32) (cb : FVec F S18180 .f32) : FVec F S8192x4x17 .f32 :=
  select (broadcastInDim S8192x4x17 ![0, 1] bcast_S8192x4_S8192x4x17_0_1 (takeMask xc))
    (Host.gather gather_S18180x17_S8192x4x1_S8192x4x17_2_0_n_n_0_2_117 (catTable v cb) (takeIdx xc))
    (broadcastInDim S8192x4x17 ![] bcast_S_S8192x4x17 (constant S_ .f32 0x7FC00000#32))

end Cert.KernelIdeal.Term

end
-- ==== Proof.KerHostRun.lean ====
/-
  What the kernel's launch finds in the two arrays its program computes beforehand: the numeric embedding rows and
  the gathered table rows, each the composed term of the arguments as launched.
-/
import proofs.«425805_j84920093376777_3_alg».proof.Proof.Gen.KernelIdeal.Frame
import proofs.«425805_j84920093376777_3_alg».proof.Proof.KerTerm
import Idealize.ShloMosaic.Lib.StableHlo.Run

noncomputable section

namespace Cert.KernelIdeal.HostVals

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The launch finds the numeric features' embedding rows in its second window's array. -/
theorem V_v7 (c : Dev nD) :
    (V m c main_v7 : S3x16.Idx → F .f32) = Term.vnum (m ((c : Thread nD τ).loc main_arg2)) := by
  show StableHlo.after (List.flatten [hostOps0, hostOps0_1, hostOps0_2, hostOps0_3]) (fun b => m (c, b))
      (Proc.devRef .tc main_v7) = _
  simp only [hostOps0, hostOps0_1, hostOps0_2, hostOps0_3, List.flatten_cons, List.flatten_nil, List.append_nil,
    List.cons_append, List.nil_append]
  after_results
  rfl

-- every operation stays folded while the two sides are compared: the equation never looks inside one (both sides apply
-- the same operations in the same order), and the bodies of the lookup and of the reduction are searches and folds over
-- the operands' 8192 rows
attribute [local irreducible] Host.reduce Host.gather broadcastInDim concatenate extractStridedSlice select cmpi addi subi
  minsi maxsi andi constantI constant in
set_option maxRecDepth 8192 in
set_option maxHeartbeats 4000000 in
/-- The launch finds the gathered table rows in its fifth window's array. -/
theorem V_v11 (c : Dev nD) :
    (V m c main_v11 : S8192x4x17.Idx → F .f32)
      = Term.gathered (m ((c : Thread nD τ).loc main_arg1)) (m ((c : Thread nD τ).loc main_arg2))
          (m ((c : Thread nD τ).loc main_arg5)) := by
  show StableHlo.after (List.flatten [hostOps0, hostOps0_1, hostOps0_2, hostOps0_3]) (fun b => m (c, b))
      (Proc.devRef .tc main_v11) = _
  simp only [hostOps0, hostOps0_1, hostOps0_2, hostOps0_3, List.flatten_cons, List.flatten_nil, List.append_nil,
    List.cons_append, List.nil_append]
  -- every operation's result read at its own buffer, any other buffer passed through: the select of the mask's
  -- broadcast, the lookup and the fill, down to the three arguments
  after_results_simp
  -- the two operands of the side-by-side table (the embedding rows from row 3 on, the biases as a column) sit in a
  -- list of shaped values: each is read there one operation at a time
  repeat (first
    | rw [StableHlo.unary_result]
    | (rw [StableHlo.nullary_result_ne]; rotate_left; decide)
    | (rw [StableHlo.unary_result_ne]; rotate_left; decide)
    | (rw [StableHlo.binary_result_ne]; rotate_left; decide))
  -- the typed references' transports are the identity at these literal buffers, and the stages of the claimed term
  -- unfold to the same operations in the same order
  rfl

end Cert.KernelIdeal.HostVals

end
-- ==== Proof.KerGather.lean ====
/-
  The kernel program's gathered rows read at one entry, where every categorical id lies in its feature's range.

  An id already in [0, size − 1] is left alone by the cut into that range, so the global row is id + offset: a row
  of the 18180-row table, never negative and at most 18179, so the lookup falls inside the table and the fill
  value is never taken. Entry e < 16 of the looked-up row is the embedding table's entry (3 + row, e); entry 16 is
  the categorical bias of that row.
-/
import proofs.«425805_j84920093376777_3_alg».proof.Proof.KerTerm
import proofs.«425805_j84920093376777_3_alg».proof.Proof.FmSpec
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

noncomputable section

namespace Cert.KernelIdeal.Gather

open Cert.KernelIdeal Cert.KernelIdeal.Term Idealize.ShloMosaic Idealize.ShloMosaic.ValueIdx Cert.FM
open Idealize.ShloMosaic.StableHlo.Predicate Facts₀ Facts

variable [Facts]

/-- The numeric embedding rows are rows 0, 1, 2 of the table. -/
theorem vnum_apply (v : FVec Ideal S18183x16 .f32) (k : Fin 3) (d : Fin 16) :
    vnum (F := Ideal) v (ix2 k d) = v (ix2 (n0 := 18183) (n1 := 16) ⟨k.val, by omega⟩ d) := by
  unfold vnum
  refine extractStridedSlice_apply _ _ _ _ _ fun a => ?_
  match a with
  | ⟨0, _⟩ => show k.val = 0 + k.val; omega
  | ⟨1, _⟩ => show d.val = 0 + d.val; omega

/-! ## Words -/

theorem sz_le : ∀ j : Fin 4, 1 ≤ sz j ∧ sz j ≤ 10000 := by decide
theorem off_le : ∀ j : Fin 4, off j ≤ 18100 := by decide

/-- A small natural number read back from its 32-bit word. -/
theorem toNat_ofNat_small (g : ℕ) (hg : g < 2 ^ 32) : (BitVec.ofNat 32 g).toNat = g := by
  rw [BitVec.toNat_ofNat]; exact Nat.mod_eq_of_lt hg

/-- A word below a size n ≤ 10000 is non-negative as a signed word and at most n − 1, so the signed maximum with 0
    and the signed minimum with n − 1 both return it. -/
theorem cut_eq (x : BitVec 32) (n : ℕ) (hn1 : 1 ≤ n) (hn : n ≤ 10000) (hx : x.toNat < n) :
    IntOp.minsi (BitVec.ofNat 32 n - 1#32) (IntOp.maxsi 0#32 x) = x := by
  have hti : x.toInt = x.toNat := toInt_eq_toNat_of_lt (by omega)
  have h0 : (0#32 : BitVec 32).toInt = 0 := by decide
  rw [sub_one_ofNat n hn1 (by omega)]
  have hl : (BitVec.ofNat 32 (n - 1)).toInt = ((n - 1 : ℕ) : ℤ) := toInt_ofNat_small _ (by omega)
  have hmax : IntOp.maxsi 0#32 x = x := by
    unfold IntOp.maxsi
    rw [if_neg]
    simp only [BitVec.slt, hti, h0, decide_eq_true_eq]; omega
  rw [hmax]
  unfold IntOp.minsi
  rw [if_neg]
  simp only [BitVec.slt, hti, hl, decide_eq_true_eq]; omega

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-! ## The index word -/

/-- The position of entry j of a 4-vector in row-major order is j. -/
theorem rowMajor_ix1 (j : Fin 4) : (S4.rowMajor (ix1 j) : Fin 4) = j := Fin.ext (Shape.rowMajor_val_one _)

/-- The last id of feature j is size_j − 1. -/
theorem lastId_apply (j : Fin 4) : lastId (ix2 (0 : Fin 1) j) = BitVec.ofNat 32 (sz j) - 1#32 := by
  have hb : broadcastInDim S1x4 ![1] bcast_S4_S1x4_1 (fun i => lit0 (S4.rowMajor i)) (ix2 (0 : Fin 1) j)
      = lit0 (S4.rowMajor (ix1 j)) :=
    broadcastInDim_apply _ _ (fun i => lit0 (S4.rowMajor i)) _ (ix1 j) fun a => by
      match a with
      | ⟨0, _⟩ => rfl
  show IntOp.subi (broadcastInDim S1x4 ![1] bcast_S4_S1x4_1 (fun i => lit0 (S4.rowMajor i)) (ix2 (0 : Fin 1) j)) 1#32 = _
  rw [hb, rowMajor_ix1]
  fin_cases j <;> rfl

/-- An id in its feature's range is left alone by the cut into that range. -/
theorem clipped_apply {xc : IVec S8192x4 32} (h : InBand xc) (b : Fin 8192) (j : Fin 4) :
    clipped xc (ix2 b j) = xc (ix2 b j) := by
  have hb : broadcastInDim S8192x4 ![0, 1] bcast_S1x4_S8192x4_0_1 lastId (ix2 b j) = lastId (ix2 (0 : Fin 1) j) :=
    broadcastInDim_apply _ _ _ _ _ fun a => by
      match a with
      | ⟨0, _⟩ => rfl
      | ⟨1, _⟩ => rfl
  show IntOp.minsi (broadcastInDim S8192x4 ![0, 1] bcast_S1x4_S8192x4_0_1 lastId (ix2 b j))
    (IntOp.maxsi 0#32 (xc (ix2 b j))) = _
  rw [hb, lastId_apply]
  exact cut_eq _ (sz j) (sz_le j).1 (sz_le j).2 (h b j)

/-- The global row word: the id plus the band offset, which does not wrap. -/
theorem gidx_apply {xc : IVec S8192x4 32} (h : InBand xc) (b : Fin 8192) (j : Fin 4) :
    gidx xc (ix2 b j) = BitVec.ofNat 32 (gid xc b j).val := by
  have hb : broadcastInDim S8192x4 ![0, 1] bcast_S1x4_S8192x4_0_1
      (broadcastInDim S1x4 ![1] bcast_S4_S1x4_1 (fun i => lit1 (S4.rowMajor i))) (ix2 b j) = BitVec.ofNat 32 (off j) := by
    refine (broadcastInDim_apply _ _ _ _ (ix2 (0 : Fin 1) j) fun a => ?_).trans ?_
    · match a with
      | ⟨0, _⟩ => rfl
      | ⟨1, _⟩ => rfl
    refine (broadcastInDim_apply _ _ _ _ (ix1 j) fun a => ?_).trans ?_
    · match a with
      | ⟨0, _⟩ => rfl
    show lit1 (S4.rowMajor (ix1 j)) = _
    rw [rowMajor_ix1]
    fin_cases j <;> rfl
  show IntOp.addi (clipped xc (ix2 b j)) (broadcastInDim S8192x4 ![0, 1] bcast_S1x4_S8192x4_0_1
      (broadcastInDim S1x4 ![1] bcast_S4_S1x4_1 (fun i => lit1 (S4.rowMajor i))) (ix2 b j)) = _
  rw [clipped_apply h, hb, gid_val h]
  apply BitVec.eq_of_toNat_eq
  show (xc (ix2 b j) + BitVec.ofNat 32 (off j)).toNat = _
  have h1 := h b j
  have h2 := (sz_le j).2
  have h3 := off_le j
  rw [BitVec.toNat_add, toNat_ofNat_small _ (by omega), toNat_ofNat_small _ (by omega)]
  exact Nat.mod_eq_of_lt (by omega)

/-- The lookup index of sample b's feature j: the global row word, which is not negative. -/
theorem takeIdx_apply {xc : IVec S8192x4 32} (h : InBand xc) (b : Fin 8192) (j : Fin 4) (c : Fin 1) :
    takeIdx xc (ix3 b j c) = BitVec.ofNat 32 (gid xc b j).val := by
  unfold Term.takeIdx
  refine (broadcastInDim_apply _ _ _ _ (ix2 b j) fun a => ?_).trans ?_
  · match a with
    | ⟨0, _⟩ => rfl
    | ⟨1, _⟩ => rfl
  rw [select_apply]
  have hg := gidx_apply h b j
  have hlt : (gid xc b j).val < 18180 := (gid xc b j).isLt
  have hc : cmpi .slt (gidx xc) (broadcastInDim S8192x4 ![] bcast_S_S8192x4 (constantI S_ 32 0#32)) (ix2 b j) = 0#1 := by
    apply eq_zero_of_ne_one
    show ¬ IntOp.cmpi .slt (gidx xc (ix2 b j)) 0#32 = 1#1
    rw [hg, slt_iff_toNat (by rw [toNat_ofNat_small _ (by omega)]; omega) (by decide)]
    exact Nat.not_lt_zero _
  rw [hc, select_zero, hg]

/-- Every lookup falls inside the table: 0 ≤ row ≤ 18179. -/
theorem takeMask_apply {xc : IVec S8192x4 32} (h : InBand xc) (b : Fin 8192) (j : Fin 4) :
    takeMask xc (ix2 b j) = 1#1 := by
  unfold takeMask
  rw [Host.reduce_eq_foldl]
  refine foldl_andi_one _ _ fun i _ => ?_
  obtain ⟨b', j', c', rfl⟩ : ∃ (b' : Fin 8192) (j' : Fin 4) (c' : Fin 1), i = ix3 b' j' c' := ⟨_, _, _, eq_ix3 i⟩
  show IntOp.andi (IntOp.cmpi .sge (takeIdx xc (ix3 b' j' c')) 0#32) (IntOp.cmpi .sle (takeIdx xc (ix3 b' j' c')) 18179#32) = 1#1
  rw [takeIdx_apply h]
  have hlt : (gid xc b' j').val < 18180 := (gid xc b' j').isLt
  have hn : (BitVec.ofNat 32 (gid xc b' j').val).toNat = (gid xc b' j').val := toNat_ofNat_small _ (by omega)
  have e1 : IntOp.cmpi .sge (BitVec.ofNat 32 (gid xc b' j').val) 0#32 = 1#1 :=
    (sge_iff_toNat (by omega) (by decide)).2 (Nat.zero_le _)
  have e2 : IntOp.cmpi .sle (BitVec.ofNat 32 (gid xc b' j').val) 18179#32 = 1#1 :=
    (sle_iff_toNat (by omega) (by decide)).2 (by rw [hn]; show _ ≤ 18179; omega)
  rw [e1, e2]; decide

/-! ## The lookup -/

/-- The table entry the lookup reads for result entry (b, j, e): row = the start index word read signed and cut into
    [0, 18179], column e. -/
theorem operandIdx_eq (idx : IVec S8192x4x1 32) (b : Fin 8192) (j : Fin 4) (e : Fin 17) (g : Fin 18180)
    (hg : idx (ix3 b j (0 : Fin 1)) = BitVec.ofNat 32 g.val) :
    gather_S18180x17_S8192x4x1_S8192x4x17_2_0_n_n_0_2_117.operandIdx (ix3 b j e) idx = ix2 g e := by
  funext a
  refine Fin.ext ?_
  match a with
  | ⟨0, _⟩ =>
    show gather_S18180x17_S8192x4x1_S8192x4x17_2_0_n_n_0_2_117.start (ix3 b j e) idx 0
      + gather_S18180x17_S8192x4x1_S8192x4x17_2_0_n_n_0_2_117.batchCoord (ix3 b j e) 0
      + gather_S18180x17_S8192x4x1_S8192x4x17_2_0_n_n_0_2_117.offCoord (ix3 b j e) 0 = g.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S18180x17_S8192x4x1_S8192x4x17_2_0_n_n_0_2_117.startIndexMap from
      List.mem_singleton.mpr rfl)]
    have hsi : gather_S18180x17_S8192x4x1_S8192x4x17_2_0_n_n_0_2_117.siIdx (ix3 b j e)
        ⟨List.idxOf (0 : Fin 2) gather_S18180x17_S8192x4x1_S8192x4x17_2_0_n_n_0_2_117.startIndexMap,
          List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi, hg]
    have hlt : g.val < 18180 := g.isLt
    show min (BitVec.ofNat 32 g.val).toInt.toNat (18180 - 1) = g.val
    rw [toInt_ofNat_small _ (by omega), Int.toNat_natCast]
    omega
  | ⟨1, _⟩ =>
    show gather_S18180x17_S8192x4x1_S8192x4x17_2_0_n_n_0_2_117.start (ix3 b j e) idx 1
      + gather_S18180x17_S8192x4x1_S8192x4x17_2_0_n_n_0_2_117.batchCoord (ix3 b j e) 1
      + gather_S18180x17_S8192x4x1_S8192x4x17_2_0_n_n_0_2_117.offCoord (ix3 b j e) 1 = e.val
    rw [GatherDims.batchCoord_eq_zero _ _ _ List.not_mem_nil]
    unfold GatherDims.start
    rw [dif_neg (show (1 : Fin 2) ∉ gather_S18180x17_S8192x4x1_S8192x4x17_2_0_n_n_0_2_117.startIndexMap from
      show (1 : Fin 2) ∉ ([0] : List (Fin 2)) from by decide)]
    unfold GatherDims.offCoord
    rw [dif_pos (show (1 : Fin 2) ∈ gather_S18180x17_S8192x4x1_S8192x4x17_2_0_n_n_0_2_117.sKept from
      (GatherDims.mem_sKept _ _).mpr ⟨show (1 : Fin 2) ∉ ([0] : List (Fin 2)) from by decide, List.not_mem_nil⟩)]
    show 0 + 0 + e.val = e.val
    omega

/-! ## The looked-up table -/

/-- Entry d < 16 of row g of the looked-up table is the embedding table's entry (3 + g, d). -/
theorem catTable_emb (v : FVec Ideal S18183x16 .f32) (cb : FVec Ideal S18180 .f32) (g : Fin 18180) (d : Fin 16) :
    catTable (F := Ideal) v cb (ix2 g (Fin.castSucc d)) = v (ix2 (n0 := 18183) (n1 := 16) ⟨3 + g.val, by omega⟩ d) := by
  unfold catTable
  refine (concatenate_apply_piece (α := Ideal .f32) (t := S18180x17) (1 : Fin 2)
    [⟨S18180x16, extractStridedSlice S18180x16 ![3, 0] v slices_S18183x16_S18180x16_3_0⟩,
      ⟨S18180x1, broadcastInDim S18180x1 ![0] bcast_S18180_S18180x1_0 cb⟩]
    concatenates_S18180x16_S18180x1_S18180x17_d1 (ix2 g (Fin.castSucc d)) 0 ?_ S18180x16 _ rfl rfl 0 rfl
    (ix2 g d) ?_ ?_).trans ?_
  · show 0 < 2
    decide
  · intro a ha
    match a with
    | ⟨0, _⟩ => rfl
    | ⟨1, _⟩ => exact absurd rfl ha
  · show 0 + d.val = d.val
    omega
  refine extractStridedSlice_apply _ _ _ _ _ fun a => ?_
  match a with
  | ⟨0, _⟩ => rfl
  | ⟨1, _⟩ => show d.val = 0 + d.val; omega

/-- Entry 16 of row g of the looked-up table is the categorical bias of row g. -/
theorem catTable_bias (v : FVec Ideal S18183x16 .f32) (cb : FVec Ideal S18180 .f32) (g : Fin 18180) :
    catTable (F := Ideal) v cb (ix2 g (16 : Fin 17)) = cb (ix1 g) := by
  unfold catTable
  refine (concatenate_apply_piece (α := Ideal .f32) (t := S18180x17) (1 : Fin 2)
    [⟨S18180x16, extractStridedSlice S18180x16 ![3, 0] v slices_S18183x16_S18180x16_3_0⟩,
      ⟨S18180x1, broadcastInDim S18180x1 ![0] bcast_S18180_S18180x1_0 cb⟩]
    concatenates_S18180x16_S18180x1_S18180x17_d1 (ix2 g (16 : Fin 17)) 1 ?_ S18180x1 _ rfl rfl 16 rfl
    (ix2 g (0 : Fin 1)) ?_ ?_).trans ?_
  · show 1 < 2
    decide
  · intro a ha
    match a with
    | ⟨0, _⟩ => rfl
    | ⟨1, _⟩ => exact absurd rfl ha
  · rfl
  refine broadcastInDim_apply _ _ _ _ _ fun a => ?_
  match a with
  | ⟨0, _⟩ => rfl

/-- With every id in range the lookup of sample b's feature j reads row gid of the looked-up table, and the fill value
    is not taken. -/
theorem gathered_apply {xc : IVec S8192x4 32} (h : InBand xc) (v : FVec Ideal S18183x16 .f32)
    (cb : FVec Ideal S18180 .f32) (b : Fin 8192) (j : Fin 4) (e : Fin 17) :
    gathered (F := Ideal) xc v cb (ix3 b j e) = catTable (F := Ideal) v cb (ix2 (gid xc b j) e) := by
  unfold gathered
  rw [select_apply]
  have hm : broadcastInDim S8192x4x17 ![0, 1] bcast_S8192x4_S8192x4x17_0_1 (takeMask xc) (ix3 b j e) = 1#1 := by
    refine (broadcastInDim_apply _ _ _ _ (ix2 b j) fun a => ?_).trans (takeMask_apply h b j)
    match a with
    | ⟨0, _⟩ => rfl
    | ⟨1, _⟩ => rfl
  rw [hm, select_one]
  unfold Host.gather
  rw [operandIdx_eq _ b j e (gid xc b j) (takeIdx_apply h b j 0)]

/-- With every id in range, entry 16 of sample b's gathered row j is the categorical bias at the global row. -/
theorem gathered_bias {xc : IVec S8192x4 32} (h : InBand xc) (v : FVec Ideal S18183x16 .f32)
    (cb : FVec Ideal S18180 .f32) (b : Fin 8192) (j : Fin 4) :
    gathered (F := Ideal) xc v cb (ix3 b j (16 : Fin 17)) = cb (ix1 (gid xc b j)) := by
  rw [gathered_apply h, catTable_bias]

/-- With every id in range, entry d < 16 of sample b's gathered row j is the embedding table's entry at row
    3 + (global row), column d. -/
theorem gathered_emb {xc : IVec S8192x4 32} (h : InBand xc) (v : FVec Ideal S18183x16 .f32)
    (cb : FVec Ideal S18180 .f32) (b : Fin 8192) (j : Fin 4) (d : Fin 16) :
    gathered (F := Ideal) xc v cb (ix3 b j (Fin.castSucc d))
      = v (ix2 (n0 := 18183) (n1 := 16) ⟨3 + (gid xc b j).val, by omega⟩ d) := by
  rw [gathered_apply h, catTable_emb]

end Cert.KernelIdeal.Gather

end
-- ==== Proof.KerValue.lean ====
/-
  The kernel's result array as one function of the arguments.

  Grid point t handles rows 2048·t … 2048·t + 2047: its numeric block and its gathered block are those rows of
  their arrays, the three small operands are whole. The body's result at local row r is the row score of those
  entries; with the gathered entries read back to the embedding table and the categorical biases at the
  sample's global rows, it is the score of row 2048·t + r. The four row blocks cover the 8192 rows, so the
  result array is the score column.
-/
import proofs.«425805_j84920093376777_3_alg».proof.Proof.Gen.KernelIdeal.Frame
import proofs.«425805_j84920093376777_3_alg».proof.Proof.Gen.KernelIdeal.Value
import proofs.«425805_j84920093376777_3_alg».proof.Proof.FmSpec
import proofs.«425805_j84920093376777_3_alg».proof.Proof.KerPayload
import proofs.«425805_j84920093376777_3_alg».proof.Proof.KerHostRun
import proofs.«425805_j84920093376777_3_alg».proof.Proof.KerGather
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.FM Idealize.ShloMosaic.ValueIdx

variable (m : (ℓ : Loc nD τ sig) → Buf (Elt Ideal) ℓ) (ρ : Dev nD → PrngReg)

/-- The score column of the arguments as launched. -/
abbrev score (c : Dev nD) : S8192x1.Idx → EReal :=
  Y (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the four grid points: the row-blocked windows move with the point, the small ones
    stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- The numeric block at point t is rows 2048·t … of the numeric features. -/
theorem iblk0_apply (c : Dev nD) (t : Fin cfg0.N) (x : S2048x3.Idx) (k : S8192x3.Idx)
    (hk0 : (k 0).val = 2048 * t.val + (x 0).val) (hk1 : (k 1).val = (x 1).val) :
    (iblk m c 0 t : Vec Ideal S2048x3 .f32) x = (m ((c : Thread nD τ).loc main_arg0) : S8192x3.Idx → EReal) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 3 + 1 * (x 1).val = (k 1).val; rw [e1, hk1]; omega

/-- The numeric embedding rows' block is the whole array the launch finds. -/
theorem iblk1_apply (c : Dev nD) (t : Fin cfg0.N) (x : S3x16.Idx) :
    (iblk m c 1 t : Vec Ideal S3x16 .f32) x = (V m c main_v7 : S3x16.Idx → EReal) x := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t (0 : Fin 2) * 3 + 1 * (x 0).val = (x 0).val; rw [e0]; omega
  | ⟨1, _⟩ => show win0_1.index t (1 : Fin 2) * 16 + 1 * (x 1).val = (x 1).val; rw [e1]; omega

/-- The numeric weights' block is the whole argument. -/
theorem iblk2_apply (c : Dev nD) (t : Fin cfg0.N) (x : S3.Idx) :
    (iblk m c 2 t : Vec Ideal S3 .f32) x = (m ((c : Thread nD τ).loc main_arg4) : S3.Idx → EReal) x := by
  obtain ⟨-, -, -, -, e0, -⟩ := idx_facts t
  unfold iblk
  rw [View.read_apply]
  show V m c main_arg4 _ = m (c.tc.loc main_arg4) _
  rw [V_main_arg4]
  congr 1
  funext a
  apply Fin.ext
  match a with
  | ⟨0, _⟩ => show win0_2.index t (0 : Fin 1) * 3 + 1 * (x 0).val = (x 0).val; rw [e0]; omega

/-- The global bias' block is the whole argument. -/
theorem iblk3_apply (c : Dev nD) (t : Fin cfg0.N) (x : S1.Idx) :
    (iblk m c 3 t : Vec Ideal S1 .f32) x = (m ((c : Thread nD τ).loc main_arg3) : S1.Idx → EReal) x := by
  obtain ⟨-, -, -, -, -, e0, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t (0 : Fin 1) * 1 + 1 * (x 0).val = (x 0).val; rw [e0]; omega

/-- The gathered block at point t is rows 2048·t … of the gathered array the launch finds. -/
theorem iblk4_apply (c : Dev nD) (t : Fin cfg0.N) (x : S2048x4x17.Idx) (k : S8192x4x17.Idx)
    (hk0 : (k 0).val = 2048 * t.val + (x 0).val) (hk1 : (k 1).val = (x 1).val) (hk2 : (k 2).val = (x 2).val) :
    (iblk m c 4 t : Vec Ideal S2048x4x17 .f32) x = (V m c main_v11 : S8192x4x17.Idx → EReal) k := by
  obtain ⟨-, -, -, -, -, -, e0, e1, e2, -⟩ := idx_facts t
  unfold iblk
  rw [View.read_apply]
  show V m c main_v11 _ = V m c main_v11 _
  congr 1
  funext a
  apply Fin.ext
  match a with
  | ⟨0, _⟩ => show win0_4.index t (0 : Fin 3) * 2048 + 1 * (x 0).val = (k 0).val; rw [e0, hk0]; omega
  | ⟨1, _⟩ => show win0_4.index t (1 : Fin 3) * 4 + 1 * (x 1).val = (k 1).val; rw [e1, hk1]; omega
  | ⟨2, _⟩ => show win0_4.index t (2 : Fin 3) * 17 + 1 * (x 2).val = (k 2).val; rw [e2, hk2]; omega

/-- WHAT POINT t WRITES BACK is block t of the score column. -/
theorem flushed_eq (hband : ∀ c : Dev nD, InBand (m ((c : Thread nD τ).loc main_arg1))) (c : Dev nD) (t : Fin cfg0.N) :
    (dats m 0 c).flushed 5 t = ((cfg0.win 5).blk t).view.read (Elt Ideal) (score m c) := by
  rw [flushed5]
  unfold out0_5
  rw [View.canon_unit_zero hz2]
  simp only [View.ld_unit_zero (S := S2048x3) hz2, View.ld_unit_zero (S := S3x16) hz2, View.ld_unit_zero (S := S3) hz1,
    View.ld_unit_zero (S := S1) hz1, View.ld_unit_zero (S := S2048x4x17) hz3]
  obtain ⟨-, -, -, -, -, -, -, -, -, e50, e51⟩ := idx_facts t
  funext y
  obtain ⟨i, hi⟩ : ∃ i : S8192x1.Idx, i = ((cfg0.win 5).blk t).view.emb y := ⟨_, rfl⟩
  have hi0 : (i 0).val = 2048 * t.val + (y 0).val := by
    rw [hi]; show win0_5.index t (0 : Fin 2) * 2048 + 1 * (y 0).val = _; rw [e50]; omega
  show (k0_pay1 (iblk m c 0 t) (iblk m c 1 t) (iblk m c 2 t) (iblk m c 3 t) (iblk m c 4 t) : S2048x1.Idx → EReal) y
      = score m c (((cfg0.win 5).blk t).view.emb y)
  rw [← hi]
  obtain ⟨r, rfl⟩ : ∃ r : Fin 2048, y = ix2 r (0 : Fin 1) :=
    ⟨y 0, by
      funext a
      match a with
      | ⟨0, _⟩ => rfl
      | ⟨1, _⟩ => exact Fin.ext (by have h1 : (y 1).val < 1 := (y 1).isLt; show (y 1).val = 0; omega)⟩
  have hi0' : (i 0).val = 2048 * t.val + r.val := hi0
  refine (Payload.pay_apply (iblk m c 0 t) (iblk m c 1 t) (iblk m c 2 t) (iblk m c 3 t) (iblk m c 4 t) r).trans ?_
  have hb := hband c
  show _ = fmRow _ _ _ _ _ _
  refine fmRow_congr ?_ ?_ ?_ ?_ ?_ ?_
  · exact iblk3_apply m c t _
  · funext k
    exact iblk0_apply m c t (ix2 r k) (ix2 (n0 := 8192) (n1 := 3) (i 0) k) hi0' rfl
  · funext k
    exact iblk2_apply m c t _
  · funext j
    rw [iblk4_apply m c t (ix3 r j (16 : Fin 17)) (ix3 (n0 := 8192) (n1 := 4) (n2 := 17) (i 0) j (16 : Fin 17)) hi0' rfl rfl,
      HostVals.V_v11 m c]
    exact Gather.gathered_bias hb _ _ (i 0) j
  · funext k d
    rw [iblk1_apply m c t (ix2 k d), HostVals.V_v7 m c]
    exact Gather.vnum_apply _ k d
  · funext j d
    rw [iblk4_apply m c t (ix3 r j (Fin.castSucc d)) (ix3 (n0 := 8192) (n1 := 4) (n2 := 17) (i 0) j (Fin.castSucc d)) hi0' rfl rfl,
      HostVals.V_v11 m c]
    exact Gather.gathered_emb hb _ _ (i 0) j d

/-- An index of the result array is in point t's block iff each coordinate is in the block's range on its axis. -/
theorem mem_blk (t : Fin cfg0.N) (i : S8192x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v12).slice (win0_5.rect t)).set ↔ _
  rw [View.set_slice_whole, Rect.mem_set_unit]
  exact Iff.rfl

/-- Every row is in the block of the point it divides to. -/
theorem cover (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 4 := N_0
  refine ⟨⟨(i 0).val / 2048, by rw [hN]; omega⟩, flush0_5 _, ?_⟩
  rw [mem_blk]
  obtain ⟨-, -, -, -, -, -, -, -, -, e50, e51⟩ := idx_facts ⟨(i 0).val / 2048, by rw [hN]; omega⟩
  intro a
  match a with
  | ⟨0, _⟩ =>
    show win0_5.index _ (0 : Fin 2) * 2048 ≤ (i 0).val ∧ (i 0).val < win0_5.index _ (0 : Fin 2) * 2048 + 2048
    rw [e50]; show (i 0).val / 2048 * 2048 ≤ (i 0).val ∧ (i 0).val < (i 0).val / 2048 * 2048 + 2048; omega
  | ⟨1, _⟩ =>
    show win0_5.index _ (1 : Fin 2) * 1 ≤ (i 1).val ∧ (i 1).val < win0_5.index _ (1 : Fin 2) * 1 + 1
    rw [e51]; omega

/-- So the result array ends holding the score column. -/
theorem final (hband : ∀ c : Dev nD, InBand (m ((c : Thread nD τ).loc main_arg1))) (c : Dev nD) :
    (dats m 0 c).arrAt 5 cfg0.N = score m c :=
  (dats m 0 c).arrAt_eq_of_cover 5 (score m c) (fun t _ => flushed_eq m hband c t) cover

/-- The run, read: the result array at the score column, the arguments unchanged. -/
theorem run (hband : ∀ c : Dev nD, InBand (m ((c : Thread nD τ).loc main_arg1))) :
    θ_run defs (onTc (τ := τ) (main (F := Ideal))) ⟨m, fun _ => 0, ρ⟩ fun r => ∀ c : Dev nD,
      r.2.mem ((c : Thread nD τ).loc main_v12) = score m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hband c), (h c).2⟩) (run_blocks m ρ)

end Cert.KernelIdeal.Hand

end
-- ==== Proof.lean ====
/-
  The certificate: a factorization-machine score computed by a row-blocked kernel over rows gathered beforehand,
  against the dense one-hot formulation.

  Both programs compute, for every batch row, the global bias plus the numeric linear term plus the four
  categorical biases, plus one half of the sum over the sixteen embedding coordinates of (the square of the summed
  embedding rows minus the sum of the squared rows). The kernel's program looks the four categorical rows up
  before the launch and sums them in the kernel; the reference scatters ones into a dense one-hot row and
  multiplies by the whole table. Where every categorical id lies in its own feature's range (the added
  precondition), the four global rows of a sample are distinct and inside the table, the one-hot row holds a
  one exactly there, and the dense products collapse to the four looked-up rows: the two results are one
  function of the arguments, with no rounding, no ordering and no finiteness involved.

  The two kernel frames are the generated ones; the reference is a straight line of host operations, and its
  frame is its run with the result dropped; the idealization rewrote nothing.
-/
import proofs.«425805_j84920093376777_3_alg».proof.Defs
import proofs.«425805_j84920093376777_3_alg».proof.Proof.Gen.Kernel
import proofs.«425805_j84920093376777_3_alg».proof.Proof.Gen.Kernel.Skeleton
import proofs.«425805_j84920093376777_3_alg».proof.Proof.Gen.Kernel.Launch
import proofs.«425805_j84920093376777_3_alg».proof.Proof.Gen.Kernel.Points
import proofs.«425805_j84920093376777_3_alg».proof.Proof.Gen.Kernel.Frame
import proofs.«425805_j84920093376777_3_alg».proof.Proof.Gen.KernelIdeal
import proofs.«425805_j84920093376777_3_alg».proof.Proof.Gen.KernelIdeal.Skeleton
import proofs.«425805_j84920093376777_3_alg».proof.Proof.Gen.KernelIdeal.Launch
import proofs.«425805_j84920093376777_3_alg».proof.Proof.Gen.KernelIdeal.Points
import proofs.«425805_j84920093376777_3_alg».proof.Proof.Gen.KernelIdeal.Frame
import proofs.«425805_j84920093376777_3_alg».proof.Proof.Gen.KernelIdeal.Value
import proofs.«425805_j84920093376777_3_alg».proof.Proof.Gen.ReferenceIdeal
import proofs.«425805_j84920093376777_3_alg».proof.Proof.Gen.Pre_finite_inputs
import proofs.«425805_j84920093376777_3_alg».proof.Proof.PreDecode
import proofs.«425805_j84920093376777_3_alg».proof.Proof.RefRun
import proofs.«425805_j84920093376777_3_alg».proof.Proof.RefValue
import proofs.«425805_j84920093376777_3_alg».proof.Proof.KerValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both programs end with the score column of the arguments: the kernel's by its blocks, the reference's by its
    stages read at a row, both where the categorical ids lie in their ranges, which the precondition says. -/
theorem algebraic : Cert.algebraic_KernelIdeal_ReferenceIdeal := by
  intro m ρ m' ρ' hpre hagree
  have hband : ∀ c : Dev Cert.KernelIdeal.nD,
      Cert.FM.InBand (m ((c.tc : Thread Cert.KernelIdeal.nD Cert.KernelIdeal.τ).loc Cert.KernelIdeal.main_arg1)) :=
    fun c => Cert.Pre_finite_inputs.Decode.inBand_of_pre _ _ _ _ _ _ (hpre c)
  refine ⟨fun c => Cert.KernelIdeal.Hand.score m c, Cert.KernelIdeal.Hand.run m ρ hband, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2]
  exact Cert.ReferenceIdeal.RefValue.refOut_eq _ _ _ _ _ _ (hband c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
